-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 4294867296#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128x64 : Shape := ⟨2, ![128, 64]⟩
abbrev S1x128 : Shape := ⟨2, ![1, 128]⟩
abbrev S1x64 : Shape := ⟨2, ![1, 64]⟩
abbrev S1 : Shape := ⟨1, ![1]⟩
abbrev S1x1 : Shape := ⟨2, ![1, 1]⟩
abbrev S1600000x128 : Shape := ⟨2, ![1600000, 128]⟩
abbrev S1000x128 : Shape := ⟨2, ![1000, 128]⟩
abbrev S1000x1 : Shape := ⟨2, ![1000, 1]⟩
abbrev S100000x64 : Shape := ⟨2, ![100000, 64]⟩
abbrev S1000x64 : Shape := ⟨2, ![1000, 64]⟩
abbrev S1000 : Shape := ⟨1, ![1000]⟩

abbrev nBuf : Space → Nat
  | .hbm => 81
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S100000x1, .f32⟩
  | .hbm, ⟨19, _⟩ => ⟨S128x128, .f32⟩
  | .hbm, ⟨20, _⟩ => ⟨S128x128, .f32⟩
  | .hbm, ⟨21, _⟩ => ⟨S128x64, .f32⟩
  | .hbm, ⟨22, _⟩ => ⟨S128x64, .f32⟩
  | .hbm, ⟨23, _⟩ => ⟨S1x128, .f32⟩
  | .hbm, ⟨24, _⟩ => ⟨S1x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1, .i32⟩
  | .hbm, ⟨34, _⟩ => ⟨S_, .i32⟩
  | .hbm, ⟨35, _⟩ => ⟨S1600000x1, .i32⟩
  | .hbm, ⟨36, _⟩ => ⟨S1600000x1, .i1⟩
  | .hbm, ⟨37, _⟩ => ⟨S1x1, .i32⟩
  | .hbm, ⟨38, _⟩ => ⟨S1600000x1, .i32⟩
  | .hbm, ⟨39, _⟩ => ⟨S1600000x1, .i1⟩
  | .hbm, ⟨40, _⟩ => ⟨S1600000x1, .i1⟩
  | .hbm, ⟨41, _⟩ => ⟨S_, .i1⟩
  | .hbm, ⟨42, _⟩ => ⟨S1600000, .i1⟩
  | .hbm, ⟨43, _⟩ => ⟨S1600000x128, .f32⟩
  | .hbm, ⟨44, _⟩ => ⟨S1600000x128, .i1⟩
  | .hbm, ⟨45, _⟩ => ⟨S_, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1, .i32⟩
  | .hbm, ⟨62, _⟩ => ⟨S_, .i32⟩
  | .hbm, ⟨63, _⟩ => ⟨S1600000x1, .i32⟩
  | .hbm, ⟨64, _⟩ => ⟨S1600000x1, .i1⟩
  | .hbm, ⟨65, _⟩ => ⟨S1x1, .i32⟩
  | .hbm, ⟨66, _⟩ => ⟨S1600000x1, .i32⟩
  | .hbm, ⟨67, _⟩ => ⟨S1600000x1, .i1⟩
  | .hbm, ⟨68, _⟩ => ⟨S1600000x1, .i1⟩
  | .hbm, ⟨69, _⟩ => ⟨S_, .i1⟩
  | .hbm, ⟨70, _⟩ => ⟨S1600000, .i1⟩
  | .hbm, ⟨71, _⟩ => ⟨S1600000x128, .f32⟩
  | .hbm, ⟨72, _⟩ => ⟨S1600000x128, .i1⟩
  | .hbm, ⟨73, _⟩ => ⟨S_, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x64, .f32⟩
  | .local _ .vmem, ⟨0, _⟩ => ⟨S1000x128, .f32⟩
  | .local _ .vmem, ⟨1, _⟩ => ⟨S1000x128, .f32⟩
  | .local _ .vmem, ⟨2, _⟩ => ⟨S1000x1, .f32⟩
  | .local _ .vmem, ⟨3, _⟩ => ⟨S1000x1, .f32⟩
  | .local _ .vmem, ⟨4, _⟩ => ⟨S1000x128, .f32⟩
  | .local _ .vmem, ⟨5, _⟩ => ⟨S1000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x1, .f32⟩
  | .local _ .vmem, ⟨14, _⟩ => ⟨S1000x1, .f32⟩
  | .local _ .vmem, ⟨15, _⟩ => ⟨S1000x128, .f32⟩
  | .local _ .vmem, ⟨16, _⟩ => ⟨S1000x128, .f32⟩
  | .local _ .vmem, ⟨17, _⟩ => ⟨S128x64, .f32⟩
  | .local _ .vmem, ⟨18, _⟩ => ⟨S1x64, .f32⟩
  | .local _ .vmem, ⟨19, _⟩ => ⟨S128x64, .f32⟩
  | .local _ .vmem, ⟨20, _⟩ => ⟨S1000x64, .f32⟩
  | .local _ .vmem, ⟨21, _⟩ => ⟨S1000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v15 : Ref sig .tc := ⟨.hbm, 47, rfl⟩
abbrev main_cst_1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v20 : Ref sig .tc := ⟨.hbm, 75, rfl⟩
abbrev main_cst_2 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  transposes_S128x128_S128x128_1_0 : S128x128.Transposes [1, 0] S128x128
  transposes_S64x128_S128x64_1_0 : S64x128.Transposes [1, 0] S128x64
  shapeCasts_S128_S1x128 : S128.ShapeCasts S1x128
  shapeCasts_S64_S1x64 : S64.ShapeCasts S1x64
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1000x1_S1000x128 : S1000x1.Broadcasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  reduces_S1000x64_S1000 : S1000x64.Reduces [1] S1000
  shapeCasts_S1000_S1000x1 : S1000.ShapeCasts S1000x1
  broadcasts_S1000x1_S1000x64 : S1000x1.Broadcasts S1000x64
  inb_S1000x64_S1000x64_0_0 : ∀ a, (![0, 0] : Fin 2 → Nat) a + S1000x64.size a ≤ S1000x64.size a
  h_S1000x64 : 0 < S1000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S100000x1.size a
  hwx0_1 : ∀ i : grid0.Coords, EltTy.bits .f32 = 32 ∨ (Rect.block (s := S100000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S100000x128.size a
  hwx0_6 : ∀ i : grid0.Coords, EltTy.bits .f32 = 32 ∨ (Rect.block (s := S100000x128) S1000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S100000x1.size a
  hwx1_1 : ∀ i : grid1.Coords, EltTy.bits .f32 = 32 ∨ (Rect.block (s := S100000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S100000x128.size a
  hwx1_2 : ∀ i : grid1.Coords, EltTy.bits .f32 = 32 ∨ (Rect.block (s := S100000x128) S1000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x64.size a ≤ S100000x64.size a
  hwx1_6 : ∀ i : grid1.Coords, EltTy.bits .f32 = 32 ∨ (Rect.block (s := S100000x64) S1000x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_v18) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S128x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x64, .f32⟩
  | .hbm, ⟨95, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RefFold.lean ====
/-
  The reference's 88 host operations read as four stretches.

  Operations 0–3 cut the edge list into the source and destination rows; 4–39 compute the hidden layer from those
  rows and the first five arguments; 40–72 compute the second layer's affine rows from the same two rows, the hidden
  layer and the last three arguments; 73–87 take the log-softmax. Each stretch is read over an ARBITRARY earlier
  valuation `W` of the buffers, under hypotheses naming the few buffers it takes over, so that what is compared at the
  end of a stretch is a small term; a buffer a stretch does not write keeps its contents. The fold over the whole
  list is the four folds in a row, and the run is the straight-line run of the list.
-/
import proofs.«421539_j88493506166796_4_alg».proof.Proof.RefRead
import Idealize.ShloMosaic.Lib.StableHlo.Run

set_option maxRecDepth 16384

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Folding over a concatenation is folding over the first list and then over the second. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The four stretches. -/
abbrev rowsOps : List (HloOp τ sig (Elt F)) := (ops (F := F)).take 4
abbrev hiddenOps : List (HloOp τ sig (Elt F)) := ((ops (F := F)).drop 4).take 36
abbrev affineOps : List (HloOp τ sig (Elt F)) := ((ops (F := F)).drop 40).take 33
abbrev softmaxOps : List (HloOp τ sig (Elt F)) := (ops (F := F)).drop 73

theorem ops_cut : (ops (F := F)) = rowsOps ++ (hiddenOps ++ (affineOps ++ softmaxOps)) := rfl

/-! ## Stretch 1: the two rows of the edge list -/

theorem rows_src (W : Valuation τ sig (Elt F)) :
    after rowsOps W (Proc.devRef .tc main_v1) = val_main_v1 (F := F) (W (Proc.devRef .tc main_arg1)) := by
  show after [_, _, _, _] W _ = _
  after_results_simp
  rfl

theorem rows_dst (W : Valuation τ sig (Elt F)) :
    after rowsOps W (Proc.devRef .tc main_v3) = val_main_v3 (F := F) (W (Proc.devRef .tc main_arg1)) := by
  show after [_, _, _, _] W _ = _
  after_results_simp
  rfl

theorem rows_keeps_main_arg0 (W : Valuation τ sig (Elt F)) : after rowsOps W (Proc.devRef .tc main_arg0) = W (Proc.devRef .tc main_arg0) := by
  show after [_, _, _, _] W _ = _
  after_results_simp
theorem rows_keeps_main_arg1 (W : Valuation τ sig (Elt F)) : after rowsOps W (Proc.devRef .tc main_arg1) = W (Proc.devRef .tc main_arg1) := by
  show after [_, _, _, _] W _ = _
  after_results_simp
theorem rows_keeps_main_arg2 (W : Valuation τ sig (Elt F)) : after rowsOps W (Proc.devRef .tc main_arg2) = W (Proc.devRef .tc main_arg2) := by
  show after [_, _, _, _] W _ = _
  after_results_simp
theorem rows_keeps_main_arg3 (W : Valuation τ sig (Elt F)) : after rowsOps W (Proc.devRef .tc main_arg3) = W (Proc.devRef .tc main_arg3) := by
  show after [_, _, _, _] W _ = _
  after_results_simp
theorem rows_keeps_main_arg4 (W : Valuation τ sig (Elt F)) : after rowsOps W (Proc.devRef .tc main_arg4) = W (Proc.devRef .tc main_arg4) := by
  show after [_, _, _, _] W _ = _
  after_results_simp
theorem rows_keeps_main_arg5 (W : Valuation τ sig (Elt F)) : after rowsOps W (Proc.devRef .tc main_arg5) = W (Proc.devRef .tc main_arg5) := by
  show after [_, _, _, _] W _ = _
  after_results_simp
theorem rows_keeps_main_arg6 (W : Valuation τ sig (Elt F)) : after rowsOps W (Proc.devRef .tc main_arg6) = W (Proc.devRef .tc main_arg6) := by
  show after [_, _, _, _] W _ = _
  after_results_simp
theorem rows_keeps_main_arg7 (W : Valuation τ sig (Elt F)) : after rowsOps W (Proc.devRef .tc main_arg7) = W (Proc.devRef .tc main_arg7) := by
  show after [_, _, _, _] W _ = _
  after_results_simp

/-! ## Stretch 2: the hidden layer -/

theorem hidden_value (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F))
    (hs : W (Proc.devRef .tc main_v1) = val_main_v1 (F := F) x1) (hd : W (Proc.devRef .tc main_v3) = val_main_v3 (F := F) x1)
    (h0 : W (Proc.devRef .tc main_arg0) = x0) (h2 : W (Proc.devRef .tc main_arg2) = x2) (h3 : W (Proc.devRef .tc main_arg3) = x3) (h4 : W (Proc.devRef .tc main_arg4) = x4) :
    after hiddenOps W (Proc.devRef .tc main_v31) = val_main_v31 (F := F) x0 x1 x2 x3 x4 := by
  show after [_, _, _, _, _, _, _, _, _, _, _, _, _, _, _, _, _, _, _, _, _, _, _, _, _, _, _, _, _, _, _, _, _, _, _, _] W _ = _
  after_results_simp
  simp only [TRef.ofBuf, TRef.toBuf, cast_eq, hs, hd, h0, h2, h3, h4]
  rfl

theorem hidden_keeps_main_v1 (W : Valuation τ sig (Elt F)) : after hiddenOps W (Proc.devRef .tc main_v1) = W (Proc.devRef .tc main_v1) := by
  show after [_, _, _, _, _, _, _, _, _, _, _, _, _, _, _, _, _, _, _, _, _, _, _, _, _, _, _, _, _, _, _, _, _, _, _, _] W _ = _
  after_results_simp
theorem hidden_keeps_main_v3 (W : Valuation τ sig (Elt F)) : after hiddenOps W (Proc.devRef .tc main_v3) = W (Proc.devRef .tc main_v3) := by
  show after [_, _, _, _, _, _, _, _, _, _, _, _, _, _, _, _, _, _, _, _, _, _, _, _, _, _, _, _, _, _, _, _, _, _, _, _] W _ = _
  after_results_simp
theorem hidden_keeps_main_arg5 (W : Valuation τ sig (Elt F)) : after hiddenOps W (Proc.devRef .tc main_arg5) = W (Proc.devRef .tc main_arg5) := by
  show after [_, _, _, _, _, _, _, _, _, _, _, _, _, _, _, _, _, _, _, _, _, _, _, _, _, _, _, _, _, _, _, _, _, _, _, _] W _ = _
  after_results_simp
theorem hidden_keeps_main_arg6 (W : Valuation τ sig (Elt F)) : after hiddenOps W (Proc.devRef .tc main_arg6) = W (Proc.devRef .tc main_arg6) := by
  show after [_, _, _, _, _, _, _, _, _, _, _, _, _, _, _, _, _, _, _, _, _, _, _, _, _, _, _, _, _, _, _, _, _, _, _, _] W _ = _
  after_results_simp
theorem hidden_keeps_main_arg7 (W : Valuation τ sig (Elt F)) : after hiddenOps W (Proc.devRef .tc main_arg7) = W (Proc.devRef .tc main_arg7) := by
  show after [_, _, _, _, _, _, _, _, _, _, _, _, _, _, _, _, _, _, _, _, _, _, _, _, _, _, _, _, _, _, _, _, _, _, _, _] W _ = _
  after_results_simp

/-! ## Stretch 3: the second layer's affine rows -/

theorem affine_value (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S64x128, .f32⟩ : BufTy).Contents (Elt F)) (x6 : (⟨S64, .f32⟩ : BufTy).Contents (Elt F)) (x7 : (⟨S64x128, .f32⟩ : BufTy).Contents (Elt F))
    (hs : W (Proc.devRef .tc main_v1) = val_main_v1 (F := F) x1) (hd : W (Proc.devRef .tc main_v3) = val_main_v3 (F := F) x1)
    (hh : W (Proc.devRef .tc main_v31) = val_main_v31 (F := F) x0 x1 x2 x3 x4)
    (h5 : W (Proc.devRef .tc main_arg5) = x5) (h6 : W (Proc.devRef .tc main_arg6) = x6) (h7 : W (Proc.devRef .tc main_arg7) = x7) :
    after affineOps W (Proc.devRef .tc main_v58) = val_main_v58 (F := F) x0 x1 x2 x3 x4 x5 x6 x7 := by
  show after [_, _, _, _, _, _, _, _, _, _, _, _, _, _, _, _, _, _, _, _, _, _, _, _, _, _, _, _, _, _, _, _, _] W _ = _
  after_results_simp
  simp only [hs, hd, hh, h5, h6, h7]
  rfl

/-! ## Stretch 4: the log-softmax -/

theorem softmax_value (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S64x128, .f32⟩ : BufTy).Contents (Elt F)) (x6 : (⟨S64, .f32⟩ : BufTy).Contents (Elt F)) (x7 : (⟨S64x128, .f32⟩ : BufTy).Contents (Elt F))
    (hz : W (Proc.devRef .tc main_v58) = val_main_v58 (F := F) x0 x1 x2 x3 x4 x5 x6 x7) :
    after softmaxOps W (Proc.devRef .tc main_v59) = val_main_v59 (F := F) x0 x1 x2 x3 x4 x5 x6 x7 := by
  show after [_, _, _, _, _, _, _, _, _, _, _, _, _, _, _] W _ = _
  after_results_simp
  simp only [TRef.ofBuf, TRef.toBuf, cast_eq, hz]
  rfl

/-! ## The whole fold, and the run -/

/-- The result buffer after all 88 operations, from any contents `V`, is the reference's last stage of `V`'s arguments. -/
theorem fold_value (V : Valuation τ sig (Elt F)) :
    after (ops (F := F)) V (Proc.devRef .tc main_v59)
      = val_main_v59 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [ops_cut, after_append, after_append, after_append]
  refine softmax_value _ _ _ _ _ _ _ _ _ (affine_value _ _ _ _ _ _ _ _ _ ?_ ?_ (hidden_value _ _ _ _ _ _ ?_ ?_ ?_ ?_ ?_ ?_) ?_ ?_ ?_)
  · rw [hidden_keeps_main_v1, rows_src]
  · rw [hidden_keeps_main_v3, rows_dst]
  · exact rows_src V
  · exact rows_dst V
  · exact rows_keeps_main_arg0 V
  · exact rows_keeps_main_arg2 V
  · exact rows_keeps_main_arg3 V
  · exact rows_keeps_main_arg4 V
  · rw [hidden_keeps_main_arg5, rows_keeps_main_arg5]
  · rw [hidden_keeps_main_arg6, rows_keeps_main_arg6]
  · rw [hidden_keeps_main_arg7, rows_keeps_main_arg7]

set_option maxHeartbeats 35200000 in
/-- On every device, from any memory with zero counters: every weakly fair execution of @main terminates with the result
    at the reference's last stage of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
        = val_main_v59 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v59).trans (fold_value (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Fold

end
-- ==== Proof.HostTerms.lean ====
/-
  The host-side terms of the kernel's program, named once.

  The edge list `ei : i32[2, 1600000]` gives a source row and a destination row. A source id is first wrapped
  numpy-style (`id + 100000` when negative) and made a column of start indices. Rows of a node table are then read
  either by the bare gather (which clamps a start index into the table) or by the guarded form that keeps a gathered
  row only where the wrapped id lies in `[0, 99999]` and otherwise fills the row with the pattern `0x7FC00000`.
  Messages are summed per destination into a zero table (`sumInto`), and ones are summed per destination into a zero
  vector (`countInto`). The scatter and the gather themselves are never opened: both programs apply the same ones.
-/
import proofs.«421539_j88493506166796_4_alg».proof.Proof.Gen.KernelIdeal

noncomputable section

namespace Cert.KernelIdeal.HostTerms

open Cert.KernelIdeal Cert.KernelIdeal.Gen Idealize.ShloMosaic Idealize.ShloMosaic.TcCoe

variable {F : FTy → Type} [FloatOps F]

/-- The source ids: row 0 of the edge list. -/
def srcOf (ei : IVec S2x1600000 32) : IVec S1600000 32 :=
  shapeCast S1600000 (extractStridedSlice S1x1600000 ![0, 0] ei slices_S2x1600000_S1x1600000_0_0) shapeCasts_S1x1600000_S1600000

/-- The destination ids: row 1 of the edge list. -/
def dstOf (ei : IVec S2x1600000 32) : IVec S1600000 32 :=
  shapeCast S1600000 (extractStridedSlice S1x1600000 ![1, 0] ei slices_S2x1600000_S1x1600000_1_0) shapeCasts_S1x1600000_S1600000

/-- A source id wrapped numpy-style: `id + 100000` where `id < 0`, else `id`. -/
def wrapped (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The wrapped ids as a column of start indices. -/
def startCol (src : IVec S1600000 32) : IVec S1600000x1 32 :=
  broadcastInDim S1600000x1 ![0] bcast_S1600000_S1600000x1_0 (wrapped src)

/-- Per edge and lane: is the start index inside `[0, 99999]`? -/
def inTable (idx : IVec S1600000x1 32) : IVec S1600000x128 1 :=
  broadcastInDim S1600000x128 ![0] bcast_S1600000_S1600000x128_0
    ((fun x v => Host.reduce IntOp.andi x v reducesTo_S1600000x1_S1600000_d1 h_S_)
      (andi (cmpi .sge idx (broadcastInDim S1600000x1 ![] bcast_S_S1600000x1 (constantI S_ 32 0#32)))
            (cmpi .sle idx (broadcastInDim S1600000x1 ![0, 1] bcast_S1x1_S1600000x1_0_1
              (broadcastInDim S1x1 ![1] bcast_S1_S1x1_1 (constantI S1 32 99999#32)))))
      (constantI S_ 1 1#1))

/-- The rows of `feat` at the start indices, the gather clamping each start into the table. -/
def gatherRows (feat : FVec F S100000x128 .f32) (src : IVec S1600000 32) : FVec F S1600000x128 .f32 :=
  Host.gather gather_S100000x128_S1600000x1_S1600000x128_1_0_n_n_0_1_1128 feat (startCol src)

/-- The guarded read: the gathered row where the start index is inside the table, the fill pattern elsewhere. -/
def takeRows (feat : FVec F S100000x128 .f32) (src : IVec S1600000 32) : FVec F S1600000x128 .f32 :=
  select (inTable (startCol src)) (gatherRows feat src)
    (broadcastInDim S1600000x128 ![] bcast_S_S1600000x128 (constant S_ .f32 0x7FC00000#32))

/-- Messages summed per destination into a zero table. -/
def sumInto (dst : IVec S1600000 32) (msgs : FVec F S1600000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst) msgs

/-- The number of edges arriving at each node: ones summed per destination into a zero vector. -/
def countInto (dst : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The count as the column the kernel's window reads. -/
def countCol (dst : IVec S1600000 32) : FVec F S100000x1 .f32 :=
  shapeCast S100000x1 (countInto (F := F) dst) shapeCasts_S100000_S100000x1

end Cert.KernelIdeal.HostTerms

end
-- ==== Proof.TakeInRange.lean ====
/-
  The guarded row read is the bare gather when every source id is a valid row index.

  A source id `s` with `−100000 ≤ s < 100000` wraps (`s + 100000` when negative) to a start index in
  `[0, 99999]`: the 32-bit sum cannot overflow at these sizes. Both comparisons of the guard are then true at
  every edge, their conjunction reduced along the unit axis is true, and the selection keeps the gathered row in
  every lane; the fill pattern is never read.
-/
import proofs.«421539_j88493506166796_4_alg».proof.Proof.HostTerms
import Idealize.ShloMosaic.Lib.ValueIdx
import Idealize.ShloMosaic.Lib.StableHlo.Predicate
import Idealize.ShloMosaic.Lib.ReduceAll

noncomputable section

namespace Cert.KernelIdeal.HostTerms

open Cert.KernelIdeal Cert.KernelIdeal.Gen Idealize.ShloMosaic Idealize.ShloMosaic.TcCoe Idealize.ShloMosaic.ValueIdx

variable {F : FTy → Type} [FloatOps F]

/-- Every source id is a row index of the 100000-row table, negative ids counted from the end. -/
def ValidIds (src : IVec S1600000 32) : Prop :=
  ∀ e : S1600000.Idx, -100000 ≤ (src e).toInt ∧ (src e).toInt < 100000

/-- One word: a signed value in `[−100000, 100000)` wrapped (`+ 100000` when negative) lies in `[0, 99999]`.
    The sum `s + 100000` of a negative `s ≥ −100000` is in `[0, 99999]`, far inside the signed 32-bit range, so
    the balanced remainder of the 32-bit addition is the integer sum itself. -/
private theorem wrap_word (s : BitVec 32) (h1 : -100000 ≤ s.toInt) (h2 : s.toInt < 100000) :
    0 ≤ (Scalar.select (IntOp.cmpi .slt s 0#32) (IntOp.addi s 100000#32) s).toInt ∧
      (Scalar.select (IntOp.cmpi .slt s 0#32) (IntOp.addi s 100000#32) s).toInt ≤ 99999 := by
  have h0 : (0#32 : BitVec 32).toInt = 0 := by decide
  have hc : (100000#32 : BitVec 32).toInt = 100000 := by decide
  by_cases hneg : s.toInt < 0
  · have hcmp : IntOp.cmpi .slt s 0#32 = 1#1 := by
      simp only [IntOp.cmpi, BitVec.slt, h0, StableHlo.Predicate.ofBool_eq_one_iff, decide_eq_true_eq]
      exact hneg
    have hsum : (IntOp.addi s 100000#32).toInt = s.toInt + 100000 := by
      show (s + 100000#32).toInt = _
      rw [BitVec.toInt_add, hc]
      exact Int.bmod_eq_of_le_mul_two (by omega) (by omega)
    rw [hcmp, select_one, hsum]
    omega
  · have hcmp : IntOp.cmpi .slt s 0#32 = 0#1 := by
      apply eq_zero_of_ne_one
      simp only [IntOp.cmpi, BitVec.slt, h0, StableHlo.Predicate.ofBool_eq_one_iff, decide_eq_true_eq]
      exact hneg
    rw [hcmp, select_zero]
    omega

/-- The wrapped id at one edge is the one-word wrap of the source id at that edge. -/
private theorem wrapped_apply (src : IVec S1600000 32) (e : S1600000.Idx) :
    wrapped src e = Scalar.select (IntOp.cmpi .slt (src e) 0#32) (IntOp.addi (src e) 100000#32) (src e) := rfl

/-- A valid id wraps into the table. -/
theorem wrapped_inTable (src : IVec S1600000 32) (h : ValidIds src) (e : S1600000.Idx) :
    0 ≤ (wrapped src e).toInt ∧ (wrapped src e).toInt ≤ 99999 := by
  rw [wrapped_apply]
  exact wrap_word (src e) (h e).1 (h e).2

/-- One word: both comparisons of the guard hold for a value in `[0, 99999]`. -/
private theorem guard_word (w : BitVec 32) (h1 : 0 ≤ w.toInt) (h2 : w.toInt ≤ 99999) :
    IntOp.andi (IntOp.cmpi .sge w 0#32) (IntOp.cmpi .sle w 99999#32) = 1#1 := by
  have h0 : (0#32 : BitVec 32).toInt = 0 := by decide
  have hc : (99999#32 : BitVec 32).toInt = 99999 := by decide
  rw [IntOp.andi_eq_one]
  constructor
  · simp only [IntOp.cmpi, BitVec.sle, h0, StableHlo.Predicate.ofBool_eq_one_iff, decide_eq_true_eq]
    exact h1
  · simp only [IntOp.cmpi, BitVec.sle, hc, StableHlo.Predicate.ofBool_eq_one_iff, decide_eq_true_eq]
    exact h2

/-- A fold of `and` from 1 over a set on which every bit is 1 is 1. -/
private theorem fold_andi_one {ι : Type} (S : Finset ι) (f : ι → BitVec 1) (hf : ∀ i, f i = 1#1) :
    S.fold IntOp.andi 1#1 f = 1#1 := by
  induction S using Finset.cons_induction with
  | empty => rfl
  | cons a S ha ih =>
    rw [Finset.fold_cons, ih, hf a]
    rfl

/-- With valid ids the guard is true in every lane of every edge. -/
theorem inTable_startCol (src : IVec S1600000 32) (h : ValidIds src) (i : S1600000x128.Idx) :
    inTable (startCol src) i = 1#1 := by
  unfold inTable
  simp only [broadcastInDim]
  rw [Host.reduce_eq_fold]
  show Finset.fold IntOp.andi 1#1 _ _ = 1#1
  apply fold_andi_one
  intro k
  exact guard_word _ (wrapped_inTable src h _).1 (wrapped_inTable src h _).2

/-- With valid ids the guarded read is the bare gather. -/
theorem takeRows_eq_gatherRows (feat : FVec F S100000x128 .f32) (src : IVec S1600000 32) (h : ValidIds src) :
    takeRows feat src = gatherRows feat src := by
  funext i
  unfold takeRows
  rw [select_apply, inTable_startCol _ h i, select_one]

end Cert.KernelIdeal.HostTerms

end
-- ==== Proof.PreSrc.lean ====
/-
  What the precondition says about the edge list: its last conjunct is the conjunction, over all 1600000 edges, of
  `source id ≥ −100000` and `source id < 100000`; so where the precondition holds every source id is a valid row
  index of the node table. The finiteness conjuncts are not used: no step of the equivalence needs them.
-/
import proofs.«421539_j88493506166796_4_alg».proof.Defs
import proofs.«421539_j88493506166796_4_alg».proof.Proof.Gen.Pre_finite_inputs
import proofs.«421539_j88493506166796_4_alg».proof.Proof.TakeInRange
import Idealize.ShloMosaic.Lib.ReduceAll
import Idealize.ShloMosaic.Lib.StableHlo.Predicate
import Idealize.ShloMosaic.Lib.Affine

noncomputable section

namespace Cert.KernelIdeal.HostTerms

open Cert.KernelIdeal Cert.KernelIdeal.Gen Idealize.ShloMosaic Idealize.ShloMosaic.TcCoe Idealize.ShloMosaic.ValueIdx Idealize.SL.Sem

/-- The scalar shape has one index. -/
private instance subsingleton_scalarIdx : Subsingleton Cert.Pre_finite_inputs.S_.Idx :=
  ⟨fun a b => funext fun d => d.elim0⟩

/-- The printed lower bound is the 32-bit word of −100000. -/
private theorem toInt_lo : (4294867296#32 : BitVec 32).toInt = -100000 := by decide

/-- The printed upper bound is the 32-bit word of 100000. -/
private theorem toInt_hi : (100000#32 : BitVec 32).toInt = 100000 := by decide

/-- The last conjunct alone: where the tail of the predicate is one, whatever word the earlier conjuncts gave, both
    comparisons hold at every edge. -/
private theorem validIds_of_part2 (ei : IVec S2x1600000 32) (v33 : IVec Cert.Pre_finite_inputs.S_ 1)
    (h : Cert.Pre_finite_inputs.fn_part2 (F := Ideal) ei v33 ix0 = 1#1) : ValidIds (srcOf ei) := by
  intro e
  dsimp only [Cert.Pre_finite_inputs.fn_part2] at h
  -- the outer conjunction: its second word is the reduction over all edges
  have hall := (IntOp.andi_eq_one.1 h).2
  -- a reduction by `and` that is one met a one at every edge
  have he := Host.reduce_andi_all _ _ _ _ _ hall e
  -- at the edge, the two comparisons
  obtain ⟨hge, hlt⟩ := IntOp.andi_eq_one.1 he
  have hge' := IntOp.cmpi_sge.1 hge
  have hlt' := IntOp.cmpi_slt.1 hlt
  -- a scalar broadcast reads the scalar; the sliced and reshaped row is the source ids
  have hlo : (4294867296#32 : BitVec 32).toInt ≤ (srcOf ei e).toInt := hge'
  have hhi : (srcOf ei e).toInt < (100000#32 : BitVec 32).toInt := hlt'
  rw [toInt_lo] at hlo
  rw [toInt_hi] at hhi
  exact ⟨hlo, hhi⟩

/-- Under the precondition every source id of the edge list is a valid row index. -/
theorem validIds_of_pre (m : (ℓ : Loc nD τ sig) → Buf (Elt Ideal) ℓ) (hpre : Cert.Pre_KernelIdeal m) (c : Dev nD) :
    ValidIds (srcOf (m ((c.tc : Thread nD τ).loc main_arg1))) := by
  have h := congrFun (hpre c) ix0
  exact validIds_of_part2 _ _ h

end Cert.KernelIdeal.HostTerms

end
-- ==== Proof.KernelHost.lean ====
/-
  What the host operations leave in the arrays the two pallas_calls read.

  At the first call's entry: the summed messages (the guarded read of the node table, summed per destination), the
  count column, the node table itself, the two transposed first-layer weights and the bias as a row. At the second
  call's entry: the same sum and count over the FIRST call's output array, that array itself, and the second layer's
  transposed weights and bias row. No host operation writes an argument, and the first call writes only its output.
-/
import proofs.«421539_j88493506166796_4_alg».proof.Proof.Gen.KernelIdeal.Frame
import proofs.«421539_j88493506166796_4_alg».proof.Proof.HostTerms
import Idealize.ShloMosaic.Lib.StableHlo.Run

set_option maxRecDepth 16384

noncomputable section

namespace Cert.KernelIdeal.HostReads

open Cert.KernelIdeal Cert.KernelIdeal.Gen Cert.KernelIdeal.HostTerms Idealize.ShloMosaic Idealize.ShloMosaic.TcCoe Idealize.SL.Sem Idealize.ShloMosaic.StableHlo Idealize.ShloMosaic.Pipeline

variable {F : FTy → Type} [FloatOps F]
variable (m : (ℓ : Loc nD τ sig) → Buf (Elt F) ℓ) (ρ : Dev nD → PrngReg)

/-- A stretch of host operations none of which writes the buffer read leaves that buffer as it was. -/
local macro "untouched " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## After the first stretch: the edge list's two rows, the count column, the transposed weights, the bias rows -/

private theorem W1_src (c : Dev nD) :
    W1 m ρ c (Proc.devRef .tc main_v1) = srcOf (m ((c : Thread nD τ).loc main_arg1)) := by
  show StableHlo.after hostOps0 _ (Proc.devRef .tc main_v1) = _
  after_results
  all_goals rfl

private theorem W1_dst (c : Dev nD) :
    W1 m ρ c (Proc.devRef .tc main_v3) = dstOf (m ((c : Thread nD τ).loc main_arg1)) := by
  show StableHlo.after hostOps0 _ (Proc.devRef .tc main_v3) = _
  after_results
  all_goals rfl

private theorem W1_count (c : Dev nD) :
    W1 m ρ c (Proc.devRef .tc main_v8) = countCol (F := F) (dstOf (m ((c : Thread nD τ).loc main_arg1))) := by
  show StableHlo.after hostOps0 _ (Proc.devRef .tc main_v8) = _
  after_results
  all_goals rfl

private theorem W1_wl0 (c : Dev nD) :
    W1 m ρ c (Proc.devRef .tc main_v9) = transpose S128x128 [1, 0] (m ((c : Thread nD τ).loc main_arg2)) transposes_S128x128_S128x128_1_0 := by
  show StableHlo.after hostOps0 _ (Proc.devRef .tc main_v9) = _
  after_results
  all_goals rfl

private theorem W1_bias0 (c : Dev nD) :
    W1 m ρ c (Proc.devRef .tc main_v13) = shapeCast S1x128 (m ((c : Thread nD τ).loc main_arg3)) shapeCasts_S128_S1x128 := by
  show StableHlo.after hostOps0 _ (Proc.devRef .tc main_v13) = _
  after_results
  all_goals rfl

private theorem W1_wr0 (c : Dev nD) :
    W1 m ρ c (Proc.devRef .tc main_v10) = transpose S128x128 [1, 0] (m ((c : Thread nD τ).loc main_arg4)) transposes_S128x128_S128x128_1_0 := by
  show StableHlo.after hostOps0 _ (Proc.devRef .tc main_v10) = _
  after_results
  all_goals rfl

private theorem W1_wl1 (c : Dev nD) :
    W1 m ρ c (Proc.devRef .tc main_v11) = transpose S128x64 [1, 0] (m ((c : Thread nD τ).loc main_arg5)) transposes_S64x128_S128x64_1_0 := by
  show StableHlo.after hostOps0 _ (Proc.devRef .tc main_v11) = _
  after_results
  all_goals rfl

private theorem W1_bias1 (c : Dev nD) :
    W1 m ρ c (Proc.devRef .tc main_v14) = shapeCast S1x64 (m ((c : Thread nD τ).loc main_arg6)) shapeCasts_S64_S1x64 := by
  show StableHlo.after hostOps0 _ (Proc.devRef .tc main_v14) = _
  after_results
  all_goals rfl

private theorem W1_wr1 (c : Dev nD) :
    W1 m ρ c (Proc.devRef .tc main_v12) = transpose S128x64 [1, 0] (m ((c : Thread nD τ).loc main_arg7)) transposes_S64x128_S128x64_1_0 := by
  show StableHlo.after hostOps0 _ (Proc.devRef .tc main_v12) = _
  after_results
  all_goals rfl

private theorem W1_x (c : Dev nD) : W1 m ρ c (Proc.devRef .tc main_arg0) = m ((c : Thread nD τ).loc main_arg0) :=
  Eq.trans (by untouched hostOps0) rfl

/-! ## The guarded read and the two sums, over any contents of the buffers they read -/

/-- Contents moved to a typed reference's buffer type and back are the contents. -/
private theorem ofBuf_toBuf {T : BufTy} (x : TRef sig T) (v : T.Contents (Elt F)) : x.ofBuf (x.toBuf v) = v := by
  obtain ⟨r, rfl, _, _⟩ := x
  rfl

set_option maxHeartbeats 4000000 in
/-- The stretch of `hostOps0_1` leaves in `main_v15` the guarded read of `main_arg0`'s rows at the ids held in `main_v1`. -/
private theorem take_of0 (V : Valuation τ sig (Elt F)) :
    StableHlo.after hostOps0_1 V (Proc.devRef .tc main_v15)
      = takeRows (F := F) (V (Proc.devRef .tc main_arg0)) (V (Proc.devRef .tc main_v1)) := by
  after_results
  simp only [ofBuf_toBuf]
  have e1 : ∀ u, (.of main_v1 : TRef sig ⟨S1600000, .i32⟩).ofBuf (Val := Elt F) u = u := fun _ => rfl
  have e2 : ∀ u, (.of main_arg0 : TRef sig ⟨S100000x128, .f32⟩).ofBuf (Val := Elt F) u = u := fun _ => rfl
  have e3 : ∀ u, (.of main_v15 : TRef sig ⟨S1600000x128, .f32⟩).toBuf (Val := Elt F) u = u := fun _ => rfl
  simp only [e1, e2, e3]
  rfl

set_option maxHeartbeats 4000000 in
/-- The stretch of `hostOps1` leaves in `main_v20` the guarded read of `main_v19`'s rows at the ids held in `main_v1`. -/
private theorem take_of1 (V : Valuation τ sig (Elt F)) :
    StableHlo.after hostOps1 V (Proc.devRef .tc main_v20)
      = takeRows (F := F) (V (Proc.devRef .tc main_v19)) (V (Proc.devRef .tc main_v1)) := by
  after_results
  simp only [ofBuf_toBuf]
  have e1 : ∀ u, (.of main_v1 : TRef sig ⟨S1600000, .i32⟩).ofBuf (Val := Elt F) u = u := fun _ => rfl
  have e2 : ∀ u, (.of main_v19 : TRef sig ⟨S100000x128, .f32⟩).ofBuf (Val := Elt F) u = u := fun _ => rfl
  have e3 : ∀ u, (.of main_v20 : TRef sig ⟨S1600000x128, .f32⟩).toBuf (Val := Elt F) u = u := fun _ => rfl
  simp only [e1, e2, e3]
  rfl

/-- The stretch of `hostOps0_2` leaves in `main_v18` the messages of `main_v15` summed per destination id of `main_v3`. -/
private theorem sum_of0 (V : Valuation τ sig (Elt F)) :
    StableHlo.after hostOps0_2 V (Proc.devRef .tc main_v18)
      = sumInto (F := F) (V (Proc.devRef .tc main_v3)) (V (Proc.devRef .tc main_v15)) := by
  after_results
  all_goals rfl

/-- The stretch of `hostOps1_1` leaves in `main_v23` the messages of `main_v20` summed per destination id of `main_v3`. -/
private theorem sum_of1 (V : Valuation τ sig (Elt F)) :
    StableHlo.after hostOps1_1 V (Proc.devRef .tc main_v23)
      = sumInto (F := F) (V (Proc.devRef .tc main_v3)) (V (Proc.devRef .tc main_v20)) := by
  after_results
  all_goals rfl

/-! ## At the first call's entry: the second and third stretches write none of these -/

private theorem W3_src (c : Dev nD) :
    W3 m ρ c (Proc.devRef .tc main_v1) = srcOf (m ((c : Thread nD τ).loc main_arg1)) :=
  calc W3 m ρ c (Proc.devRef .tc main_v1)
    _ = W2 m ρ c (Proc.devRef .tc main_v1) := by untouched hostOps0_2
    _ = W1 m ρ c (Proc.devRef .tc main_v1) := by untouched hostOps0_1
    _ = _ := W1_src m ρ c

private theorem W3_dst (c : Dev nD) :
    W3 m ρ c (Proc.devRef .tc main_v3) = dstOf (m ((c : Thread nD τ).loc main_arg1)) :=
  calc W3 m ρ c (Proc.devRef .tc main_v3)
    _ = W2 m ρ c (Proc.devRef .tc main_v3) := by untouched hostOps0_2
    _ = W1 m ρ c (Proc.devRef .tc main_v3) := by untouched hostOps0_1
    _ = _ := W1_dst m ρ c

private theorem W3_count (c : Dev nD) :
    W3 m ρ c (Proc.devRef .tc main_v8) = countCol (F := F) (dstOf (m ((c : Thread nD τ).loc main_arg1))) :=
  calc W3 m ρ c (Proc.devRef .tc main_v8)
    _ = W2 m ρ c (Proc.devRef .tc main_v8) := by untouched hostOps0_2
    _ = W1 m ρ c (Proc.devRef .tc main_v8) := by untouched hostOps0_1
    _ = _ := W1_count m ρ c

private theorem W3_wl0 (c : Dev nD) :
    W3 m ρ c (Proc.devRef .tc main_v9) = transpose S128x128 [1, 0] (m ((c : Thread nD τ).loc main_arg2)) transposes_S128x128_S128x128_1_0 :=
  calc W3 m ρ c (Proc.devRef .tc main_v9)
    _ = W2 m ρ c (Proc.devRef .tc main_v9) := by untouched hostOps0_2
    _ = W1 m ρ c (Proc.devRef .tc main_v9) := by untouched hostOps0_1
    _ = _ := W1_wl0 m ρ c

private theorem W3_bias0 (c : Dev nD) :
    W3 m ρ c (Proc.devRef .tc main_v13) = shapeCast S1x128 (m ((c : Thread nD τ).loc main_arg3)) shapeCasts_S128_S1x128 :=
  calc W3 m ρ c (Proc.devRef .tc main_v13)
    _ = W2 m ρ c (Proc.devRef .tc main_v13) := by untouched hostOps0_2
    _ = W1 m ρ c (Proc.devRef .tc main_v13) := by untouched hostOps0_1
    _ = _ := W1_bias0 m ρ c

private theorem W3_wr0 (c : Dev nD) :
    W3 m ρ c (Proc.devRef .tc main_v10) = transpose S128x128 [1, 0] (m ((c : Thread nD τ).loc main_arg4)) transposes_S128x128_S128x128_1_0 :=
  calc W3 m ρ c (Proc.devRef .tc main_v10)
    _ = W2 m ρ c (Proc.devRef .tc main_v10) := by untouched hostOps0_2
    _ = W1 m ρ c (Proc.devRef .tc main_v10) := by untouched hostOps0_1
    _ = _ := W1_wr0 m ρ c

private theorem W3_wl1 (c : Dev nD) :
    W3 m ρ c (Proc.devRef .tc main_v11) = transpose S128x64 [1, 0] (m ((c : Thread nD τ).loc main_arg5)) transposes_S64x128_S128x64_1_0 :=
  calc W3 m ρ c (Proc.devRef .tc main_v11)
    _ = W2 m ρ c (Proc.devRef .tc main_v11) := by untouched hostOps0_2
    _ = W1 m ρ c (Proc.devRef .tc main_v11) := by untouched hostOps0_1
    _ = _ := W1_wl1 m ρ c

private theorem W3_bias1 (c : Dev nD) :
    W3 m ρ c (Proc.devRef .tc main_v14) = shapeCast S1x64 (m ((c : Thread nD τ).loc main_arg6)) shapeCasts_S64_S1x64 :=
  calc W3 m ρ c (Proc.devRef .tc main_v14)
    _ = W2 m ρ c (Proc.devRef .tc main_v14) := by untouched hostOps0_2
    _ = W1 m ρ c (Proc.devRef .tc main_v14) := by untouched hostOps0_1
    _ = _ := W1_bias1 m ρ c

private theorem W3_wr1 (c : Dev nD) :
    W3 m ρ c (Proc.devRef .tc main_v12) = transpose S128x64 [1, 0] (m ((c : Thread nD τ).loc main_arg7)) transposes_S64x128_S128x64_1_0 :=
  calc W3 m ρ c (Proc.devRef .tc main_v12)
    _ = W2 m ρ c (Proc.devRef .tc main_v12) := by untouched hostOps0_2
    _ = W1 m ρ c (Proc.devRef .tc main_v12) := by untouched hostOps0_1
    _ = _ := W1_wr1 m ρ c

private theorem W3_x (c : Dev nD) :
    W3 m ρ c (Proc.devRef .tc main_arg0) = m ((c : Thread nD τ).loc main_arg0) :=
  calc W3 m ρ c (Proc.devRef .tc main_arg0)
    _ = W2 m ρ c (Proc.devRef .tc main_arg0) := by untouched hostOps0_2
    _ = W1 m ρ c (Proc.devRef .tc main_arg0) := by untouched hostOps0_1
    _ = _ := W1_x m ρ c

private theorem W2_dst (c : Dev nD) : W2 m ρ c (Proc.devRef .tc main_v3) = dstOf (m ((c : Thread nD τ).loc main_arg1)) :=
  Eq.trans (by untouched hostOps0_1) (W1_dst m ρ c)

private theorem W2_take (c : Dev nD) :
    W2 m ρ c (Proc.devRef .tc main_v15) = takeRows (m ((c : Thread nD τ).loc main_arg0)) (srcOf (m ((c : Thread nD τ).loc main_arg1))) := by
  show StableHlo.after hostOps0_1 (W1 m ρ c) (Proc.devRef .tc main_v15) = _
  rw [take_of0, W1_x, W1_src]

private theorem W3_sum (c : Dev nD) :
    W3 m ρ c (Proc.devRef .tc main_v18) = sumInto (F := F) (dstOf (m ((c : Thread nD τ).loc main_arg1)))
      (takeRows (m ((c : Thread nD τ).loc main_arg0)) (srcOf (m ((c : Thread nD τ).loc main_arg1)))) := by
  show StableHlo.after hostOps0_2 (W2 m ρ c) (Proc.devRef .tc main_v18) = _
  rw [sum_of0, W2_dst, W2_take]

/-! ## Across the first call: its output window's array is what the pipeline leaves, the count column is read back
    through its input window, and the other buffers read below are none of its arrays -/

private theorem W4_hidden (c : Dev nD) : W4 m ρ c (Proc.devRef .tc main_v19) = (dat0 (V3 m ρ) c).arrAt 6 cfg0.N :=
  W4_arr m ρ c 6

private theorem W4_count (c : Dev nD) :
    W4 m ρ c (Proc.devRef .tc main_v8) = countCol (F := F) (dstOf (m ((c : Thread nD τ).loc main_arg1))) :=
  calc W4 m ρ c (Proc.devRef .tc main_v8)
    _ = W3 m ρ c (Proc.devRef .tc main_v8) := (W4_arr m ρ c 1).trans (((dat0 (V3 m ρ) c).arrAt_in 1 rfl _).trans (A_eq0 (V3 m ρ) c 1))
    _ = _ := W3_count m ρ c

private theorem W4_src (c : Dev nD) :
    W4 m ρ c (Proc.devRef .tc main_v1) = srcOf (m ((c : Thread nD τ).loc main_arg1)) :=
  (W4_of_ne m ρ c main_v1 (by decide)).trans (W3_src m ρ c)

private theorem W4_dst (c : Dev nD) :
    W4 m ρ c (Proc.devRef .tc main_v3) = dstOf (m ((c : Thread nD τ).loc main_arg1)) :=
  (W4_of_ne m ρ c main_v3 (by decide)).trans (W3_dst m ρ c)

private theorem W4_wl1 (c : Dev nD) :
    W4 m ρ c (Proc.devRef .tc main_v11) = transpose S128x64 [1, 0] (m ((c : Thread nD τ).loc main_arg5)) transposes_S64x128_S128x64_1_0 :=
  (W4_of_ne m ρ c main_v11 (by decide)).trans (W3_wl1 m ρ c)

private theorem W4_bias1 (c : Dev nD) :
    W4 m ρ c (Proc.devRef .tc main_v14) = shapeCast S1x64 (m ((c : Thread nD τ).loc main_arg6)) shapeCasts_S64_S1x64 :=
  (W4_of_ne m ρ c main_v14 (by decide)).trans (W3_bias1 m ρ c)

private theorem W4_wr1 (c : Dev nD) :
    W4 m ρ c (Proc.devRef .tc main_v12) = transpose S128x64 [1, 0] (m ((c : Thread nD τ).loc main_arg7)) transposes_S64x128_S128x64_1_0 :=
  (W4_of_ne m ρ c main_v12 (by decide)).trans (W3_wr1 m ρ c)

/-! ## At the second call's entry -/

private theorem W5_dst (c : Dev nD) : W5 m ρ c (Proc.devRef .tc main_v3) = dstOf (m ((c : Thread nD τ).loc main_arg1)) :=
  Eq.trans (by untouched hostOps1) (W4_dst m ρ c)

private theorem W5_take (c : Dev nD) :
    W5 m ρ c (Proc.devRef .tc main_v20) = takeRows ((dat0 (V3 m ρ) c).arrAt 6 cfg0.N) (srcOf (m ((c : Thread nD τ).loc main_arg1))) := by
  show StableHlo.after hostOps1 (W4 m ρ c) (Proc.devRef .tc main_v20) = _
  rw [take_of1, W4_hidden, W4_src]

private theorem W6_sum (c : Dev nD) :
    W6 m ρ c (Proc.devRef .tc main_v23) = sumInto (F := F) (dstOf (m ((c : Thread nD τ).loc main_arg1)))
      (takeRows ((dat0 (V3 m ρ) c).arrAt 6 cfg0.N) (srcOf (m ((c : Thread nD τ).loc main_arg1)))) := by
  show StableHlo.after hostOps1_1 (W5 m ρ c) (Proc.devRef .tc main_v23) = _
  rw [sum_of1, W5_dst, W5_take]

private theorem W6_hidden (c : Dev nD) :
    W6 m ρ c (Proc.devRef .tc main_v19) = (dat0 (V3 m ρ) c).arrAt 6 cfg0.N :=
  calc W6 m ρ c (Proc.devRef .tc main_v19)
    _ = W5 m ρ c (Proc.devRef .tc main_v19) := by untouched hostOps1_1
    _ = W4 m ρ c (Proc.devRef .tc main_v19) := by untouched hostOps1
    _ = _ := W4_hidden m ρ c

private theorem W6_count (c : Dev nD) :
    W6 m ρ c (Proc.devRef .tc main_v8) = countCol (F := F) (dstOf (m ((c : Thread nD τ).loc main_arg1))) :=
  calc W6 m ρ c (Proc.devRef .tc main_v8)
    _ = W5 m ρ c (Proc.devRef .tc main_v8) := by untouched hostOps1_1
    _ = W4 m ρ c (Proc.devRef .tc main_v8) := by untouched hostOps1
    _ = _ := W4_count m ρ c

private theorem W6_wl1 (c : Dev nD) :
    W6 m ρ c (Proc.devRef .tc main_v11) = transpose S128x64 [1, 0] (m ((c : Thread nD τ).loc main_arg5)) transposes_S64x128_S128x64_1_0 :=
  calc W6 m ρ c (Proc.devRef .tc main_v11)
    _ = W5 m ρ c (Proc.devRef .tc main_v11) := by untouched hostOps1_1
    _ = W4 m ρ c (Proc.devRef .tc main_v11) := by untouched hostOps1
    _ = _ := W4_wl1 m ρ c

private theorem W6_bias1 (c : Dev nD) :
    W6 m ρ c (Proc.devRef .tc main_v14) = shapeCast S1x64 (m ((c : Thread nD τ).loc main_arg6)) shapeCasts_S64_S1x64 :=
  calc W6 m ρ c (Proc.devRef .tc main_v14)
    _ = W5 m ρ c (Proc.devRef .tc main_v14) := by untouched hostOps1_1
    _ = W4 m ρ c (Proc.devRef .tc main_v14) := by untouched hostOps1
    _ = _ := W4_bias1 m ρ c

private theorem W6_wr1 (c : Dev nD) :
    W6 m ρ c (Proc.devRef .tc main_v12) = transpose S128x64 [1, 0] (m ((c : Thread nD τ).loc main_arg7)) transposes_S64x128_S128x64_1_0 :=
  calc W6 m ρ c (Proc.devRef .tc main_v12)
    _ = W5 m ρ c (Proc.devRef .tc main_v12) := by untouched hostOps1_1
    _ = W4 m ρ c (Proc.devRef .tc main_v12) := by untouched hostOps1
    _ = _ := W4_wr1 m ρ c

/-! ## The first call's entry -/

theorem entry0_x (c : Dev nD) : V3 m ρ c main_arg0 = m ((c : Thread nD τ).loc main_arg0) :=
  W3_x m ρ c

theorem entry0_sum (c : Dev nD) :
    V3 m ρ c main_v18 = sumInto (F := F) (dstOf (m ((c : Thread nD τ).loc main_arg1)))
      (takeRows (m ((c : Thread nD τ).loc main_arg0)) (srcOf (m ((c : Thread nD τ).loc main_arg1)))) :=
  W3_sum m ρ c

theorem entry0_count (c : Dev nD) :
    V3 m ρ c main_v8 = countCol (F := F) (dstOf (m ((c : Thread nD τ).loc main_arg1))) :=
  W3_count m ρ c

theorem entry0_wl (c : Dev nD) :
    V3 m ρ c main_v9 = transpose S128x128 [1, 0] (m ((c : Thread nD τ).loc main_arg2)) transposes_S128x128_S128x128_1_0 :=
  W3_wl0 m ρ c

theorem entry0_bias (c : Dev nD) :
    V3 m ρ c main_v13 = shapeCast S1x128 (m ((c : Thread nD τ).loc main_arg3)) shapeCasts_S128_S1x128 :=
  W3_bias0 m ρ c

theorem entry0_wr (c : Dev nD) :
    V3 m ρ c main_v10 = transpose S128x128 [1, 0] (m ((c : Thread nD τ).loc main_arg4)) transposes_S128x128_S128x128_1_0 :=
  W3_wr0 m ρ c

/-! ## The second call's entry -/

theorem entry1_hidden (c : Dev nD) : V6 m ρ c main_v19 = (dat0 (V3 m ρ) c).arrAt 6 cfg0.N :=
  W6_hidden m ρ c

theorem entry1_sum (c : Dev nD) :
    V6 m ρ c main_v23 = sumInto (F := F) (dstOf (m ((c : Thread nD τ).loc main_arg1)))
      (takeRows ((dat0 (V3 m ρ) c).arrAt 6 cfg0.N) (srcOf (m ((c : Thread nD τ).loc main_arg1)))) :=
  W6_sum m ρ c

theorem entry1_count (c : Dev nD) :
    V6 m ρ c main_v8 = countCol (F := F) (dstOf (m ((c : Thread nD τ).loc main_arg1))) :=
  W6_count m ρ c

theorem entry1_wl (c : Dev nD) :
    V6 m ρ c main_v11 = transpose S128x64 [1, 0] (m ((c : Thread nD τ).loc main_arg5)) transposes_S64x128_S128x64_1_0 :=
  W6_wl1 m ρ c

theorem entry1_bias (c : Dev nD) :
    V6 m ρ c main_v14 = shapeCast S1x64 (m ((c : Thread nD τ).loc main_arg6)) shapeCasts_S64_S1x64 :=
  W6_bias1 m ρ c

theorem entry1_wr (c : Dev nD) :
    V6 m ρ c main_v12 = transpose S128x64 [1, 0] (m ((c : Thread nD τ).loc main_arg7)) transposes_S64x128_S128x64_1_0 :=
  W6_wr1 m ρ c

end Cert.KernelIdeal.HostReads

end
-- ==== Proof.SageRow.lean ====
/-
  One row of a two-layer mean-aggregating graph convolution, on the extended reals.

  A node's row is computed from the row `a` of summed neighbour features, the neighbour count `d`, the node's own
  row `s`, two weight matrices read as `W k j` (input coordinate `k`, output coordinate `j`) and a bias row:
  the mean `a k / max d 1`, the affine map `(∑ k, mean k · Wl k j) + b j + ∑ k, s k · Wr k j` — in exactly this
  grouping of the three summands, which is the one both programs compute —, then either the positive part
  (first layer) or the row's log-softmax (second layer): `(z j − M) − log ∑ k, exp (z k − M)` with `M` the
  row's maximum. Everything is stated with `Finset` sums and a `Finset` fold of `max` from `⊥`, so neither an
  order of summation nor a tiling appears.
-/
import Idealize.ShloMosaic.PureOps.Ideal

noncomputable section

namespace Cert.Sage

open Idealize.ShloMosaic

/-- A summed feature divided by the neighbour count, the count raised to at least one. -/
def meanAt (a d : EReal) : EReal := Ideal.div a (max d 1)

/-- The affine part of one layer at output coordinate `j`. -/
def lin {n : ℕ} (a : Fin 128 → EReal) (d : EReal) (Wl : Fin 128 → Fin n → EReal) (b : Fin n → EReal)
    (s : Fin 128 → EReal) (Wr : Fin 128 → Fin n → EReal) (j : Fin n) : EReal :=
  ((∑ k, meanAt (a k) d * Wl k j) + b j) + ∑ k, s k * Wr k j

/-- First layer: the positive part of the affine row. -/
def hid {n : ℕ} (a : Fin 128 → EReal) (d : EReal) (Wl : Fin 128 → Fin n → EReal) (b : Fin n → EReal)
    (s : Fin 128 → EReal) (Wr : Fin 128 → Fin n → EReal) (j : Fin n) : EReal :=
  max (lin a d Wl b s Wr j) 0

/-- A row's maximum, folded from `⊥`. -/
def rowMax {n : ℕ} (z : Fin n → EReal) : EReal := (Finset.univ : Finset (Fin n)).fold max ⊥ z

/-- Second layer's closing step: the log-softmax of a row. -/
def logSm {n : ℕ} (z : Fin n → EReal) (j : Fin n) : EReal :=
  (z j - rowMax z) - Ideal.log (∑ k, Ideal.exp (z k - rowMax z))

/-- Taking the maximum once more with `⊥` changes nothing. -/
theorem max_bot_left (x : EReal) : max ⊥ x = x := max_eq_right bot_le

end Cert.Sage

end
-- ==== Proof.Layer1Block.lean ====
/-
  The first layer's body on one block of 1000 nodes, read at a row `p` and an output lane `q`: it is the
  positive part of the affine row of the block's row `p` — the loaded sum block `v4`, the count column `v0`,
  the node block `v15`, the two weight blocks read as (input, output) and the bias row.
-/
import proofs.«421539_j88493506166796_4_alg».proof.Proof.Gen.KernelIdeal.Skeleton
import proofs.«421539_j88493506166796_4_alg».proof.Proof.SageRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer1

open Cert.KernelIdeal Cert.KernelIdeal.Gen Idealize.ShloMosaic Idealize.ShloMosaic.TcCoe Idealize.ShloMosaic.ValueIdx Idealize.SL.Sem

/-- The single-precision word of 1.0 is the real number one. -/
private theorem ofBits_one_f32 : Ideal.ofBits .f32 0x3F800000#32 = 1 := by
  simp [Ideal.ofBits, Ideal.ieee]
  rw [← EReal.coe_mul]
  norm_num

/-- An `[a, 1]` column broadcast to `[a, b]` reads, at `(p, c)`, the operand's row `p` at its one lane. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row coordinate is the output's row. -/
private theorem lhs_dot_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- The left operand's lane coordinate is the contraction position. -/
private theorem lhs_dot_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- The right operand's row coordinate is the contraction position. -/
private theorem rhs_dot_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- The right operand's lane coordinate is the output's lane. -/
private theorem rhs_dot_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A `[1000,128] × [128,128]` product accumulated into the zero splat, read at `(p, q)`: the sum over the 128
    contraction positions of the left operand's row `p` times the right operand's column `q`. -/
private theorem matmul_zero_apply (x : FVec Ideal S1000x128 .f32) (w : FVec Ideal S128x128 .f32) (p : Fin 1000) (q : Fin 128) :
    matmul dot_S1000x128_S128x128_S1000x128_1_0_0_1_n_n none x w (constant (F := Ideal) S1000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

theorem block_row (v0 : Vec Ideal S1000x1 .f32) (v4 : Vec Ideal S1000x128 .f32) (v8 : Vec Ideal S128x128 .f32)
    (v11 : Vec Ideal S1x128 .f32) (v15 : Vec Ideal S1000x128 .f32) (v16 : Vec Ideal S128x128 .f32)
    (p : Fin 1000) (q : Fin 128) :
    k0_pay1 (F := Ideal) v0 v4 v8 v11 v15 v16 (ix2 p q)
      = Cert.Sage.hid (fun k => v4 (ix2 p k)) (v0 (ix2 p 0)) (fun k j => v8 (ix2 k j)) (fun j => v11 (ix2 0 j))
          (fun k => v15 (ix2 p k)) (fun k j => v16 (ix2 k j)) q := by
  unfold k0_pay1
  simp only [shapeCast_self]
  rw [maximumf_apply, addf_apply, addf_apply, matmul_zero_apply, matmul_zero_apply, broadcast_apply]
  simp only [divf_apply, broadcastTo_a1_ab_apply, broadcastTo_1b_ab_apply, maximumf_apply, broadcast_apply,
    Ideal.ofBits_def, ofBits_one_f32, Ideal.ofBits_zero_f32]
  unfold Cert.Sage.hid Cert.Sage.lin Cert.Sage.meanAt
  rfl

end Cert.KernelIdeal.Layer1

end
-- ==== Proof.Region0Array.lean ====
/-
  What the first pallas_call leaves in its output array, whatever the buffers hold when it is entered (`V`):
  row `r` of the array is the first layer's row of row `r` of the entry arrays — the 100 blocks of 1000 rows tile
  the 100000 rows, block `t` being rows `1000 t … 1000 t + 999`, and the weight and bias windows are whole.
-/
import proofs.«421539_j88493506166796_4_alg».proof.Proof.Gen.KernelIdeal.Frame
import proofs.«421539_j88493506166796_4_alg».proof.Proof.Layer1Block
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region0

open Cert.KernelIdeal Cert.KernelIdeal.Gen Idealize.ShloMosaic Idealize.ShloMosaic.TcCoe Idealize.ShloMosaic.ValueIdx Idealize.SL.Sem Idealize.ShloMosaic.Pipeline

variable (V : (c : Dev nD) → (b : Ref sig .tc) → Buf (Elt Ideal) ((c : Thread nD τ).loc b))

/-! ## The zero offsets, and the printed index maps over the 100 grid points -/

/-- The zero offsets of a whole-buffer access, as a constant function. -/
private theorem zero_offsets : (![0, 0] : Fin 2 → Nat) = fun _ => 0 := funext fun a => by fin_cases a <;> rfl

/-- The printed index maps, decided over the grid: the three row windows and the output window sit at block `t` of
    the rows and block `0` of the columns; the two weight windows and the bias window sit at block `(0, 0)`; and
    there are 100 points. -/
private theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ t.val < 100 :=
  (by decide +kernel : ∀ t : Fin grid0.N, _)

/-- Every one of the 100 row blocks is some point's. -/
private theorem point_of_block : ∀ b : Fin 100, ∃ t : Fin cfg0.N, t.val = b.val :=
  (by decide +kernel : ∀ b : Fin 100, ∃ t : Fin grid0.N, t.val = b.val)

/-! ## The array's closed form -/

/-- What the output array ends holding: row `i 0` is the first layer's row of row `i 0` of the entry arrays. -/
private abbrev rows (c : Dev nD) : S100000x128.Idx → EReal := fun i =>
  Cert.Sage.hid (fun k => V c main_v18 (ix2 (i 0) k)) (V c main_v8 (ix2 (i 0) 0)) (fun k j => V c main_v9 (ix2 k j))
    (fun j => V c main_v13 (ix2 0 j)) (fun k => V c main_arg0 (ix2 (i 0) k)) (fun k j => V c main_v10 (ix2 k j)) (i 1)

/-! ## Each window's block at a point, element by element

A block's element sits in its array, on each axis, at block index × block size + 1 × its coordinate in the block. -/

/-- Row `p` of the sum window's block at point `t` is row `1000 t + p` of the sum array. -/
private theorem sum_block (c : Dev nD) (t : Fin cfg0.N) (p : Fin 1000) (k : Fin 128) (r : Fin 100000)
    (hr : r.val = 1000 * t.val + p.val) : iblk0 (F := Ideal) V c 0 t (ix2 p k) = V c main_v18 (ix2 r k) := by
  show V c main_v18 (((cfg0.win 0).blk t).view.emb (ix2 p k)) = V c main_v18 (ix2 r k)
  refine congrArg _ ?_
  obtain ⟨e0, e1, -⟩ := block_index t
  funext a; apply Fin.ext
  match a with
  | ⟨0, _⟩ => show win0_0.index t (0 : Fin 2) * 1000 + 1 * p.val = r.val; omega
  | ⟨1, _⟩ => show win0_0.index t (1 : Fin 2) * 128 + 1 * k.val = k.val; omega

/-- Row `p` of the count window's block at point `t` is row `1000 t + p` of the count column. -/
private theorem count_block (c : Dev nD) (t : Fin cfg0.N) (p : Fin 1000) (k : Fin 1) (r : Fin 100000)
    (hr : r.val = 1000 * t.val + p.val) : iblk0 (F := Ideal) V c 1 t (ix2 p k) = V c main_v8 (ix2 r k) := by
  show V c main_v8 (((cfg0.win 1).blk t).view.emb (ix2 p k)) = V c main_v8 (ix2 r k)
  refine congrArg _ ?_
  obtain ⟨-, -, e0, e1, -⟩ := block_index t
  funext a; apply Fin.ext
  match a with
  | ⟨0, _⟩ => show win0_1.index t (0 : Fin 2) * 1000 + 1 * p.val = r.val; omega
  | ⟨1, _⟩ => show win0_1.index t (1 : Fin 2) * 1 + 1 * k.val = k.val; omega

/-- Row `p` of the own-feature window's block at point `t` is row `1000 t + p` of the feature array. -/
private theorem self_block (c : Dev nD) (t : Fin cfg0.N) (p : Fin 1000) (k : Fin 128) (r : Fin 100000)
    (hr : r.val = 1000 * t.val + p.val) : iblk0 (F := Ideal) V c 2 t (ix2 p k) = V c main_arg0 (ix2 r k) := by
  show V c main_arg0 (((cfg0.win 2).blk t).view.emb (ix2 p k)) = V c main_arg0 (ix2 r k)
  refine congrArg _ ?_
  obtain ⟨-, -, -, -, e0, e1, -⟩ := block_index t
  funext a; apply Fin.ext
  match a with
  | ⟨0, _⟩ => show win0_2.index t (0 : Fin 2) * 1000 + 1 * p.val = r.val; omega
  | ⟨1, _⟩ => show win0_2.index t (1 : Fin 2) * 128 + 1 * k.val = k.val; omega

/-- The neighbour weight window's block is the whole matrix at every point. -/
private theorem wl_block (c : Dev nD) (t : Fin cfg0.N) (k : Fin 128) (j : Fin 128) :
    iblk0 (F := Ideal) V c 3 t (ix2 k j) = V c main_v9 (ix2 k j) := by
  show V c main_v9 (((cfg0.win 3).blk t).view.emb (ix2 k j)) = V c main_v9 (ix2 k j)
  refine congrArg _ ?_
  obtain ⟨-, -, -, -, -, -, e0, e1, -⟩ := block_index t
  funext a; apply Fin.ext
  match a with
  | ⟨0, _⟩ => show win0_3.index t (0 : Fin 2) * 128 + 1 * k.val = k.val; omega
  | ⟨1, _⟩ => show win0_3.index t (1 : Fin 2) * 128 + 1 * j.val = j.val; omega

/-- The bias window's block is the whole row at every point. -/
private theorem bias_block (c : Dev nD) (t : Fin cfg0.N) (k : Fin 1) (j : Fin 128) :
    iblk0 (F := Ideal) V c 4 t (ix2 k j) = V c main_v13 (ix2 k j) := by
  show V c main_v13 (((cfg0.win 4).blk t).view.emb (ix2 k j)) = V c main_v13 (ix2 k j)
  refine congrArg _ ?_
  obtain ⟨-, -, -, -, -, -, -, -, e0, e1, -⟩ := block_index t
  funext a; apply Fin.ext
  match a with
  | ⟨0, _⟩ => show win0_4.index t (0 : Fin 2) * 1 + 1 * k.val = k.val; omega
  | ⟨1, _⟩ => show win0_4.index t (1 : Fin 2) * 128 + 1 * j.val = j.val; omega

/-- The own-feature weight window's block is the whole matrix at every point. -/
private theorem wr_block (c : Dev nD) (t : Fin cfg0.N) (k : Fin 128) (j : Fin 128) :
    iblk0 (F := Ideal) V c 5 t (ix2 k j) = V c main_v10 (ix2 k j) := by
  show V c main_v10 (((cfg0.win 5).blk t).view.emb (ix2 k j)) = V c main_v10 (ix2 k j)
  refine congrArg _ ?_
  obtain ⟨-, -, -, -, -, -, -, -, -, -, e0, e1, -⟩ := block_index t
  funext a; apply Fin.ext
  match a with
  | ⟨0, _⟩ => show win0_5.index t (0 : Fin 2) * 128 + 1 * k.val = k.val; omega
  | ⟨1, _⟩ => show win0_5.index t (1 : Fin 2) * 128 + 1 * j.val = j.val; omega

/-! ## What a point writes back -/

/-- The first layer's row depends on its six arguments only. -/
private theorem hid_congr {a a' : Fin 128 → EReal} {d d' : EReal} {Wl Wl' : Fin 128 → Fin 128 → EReal}
    {b b' : Fin 128 → EReal} {s s' : Fin 128 → EReal} {Wr Wr' : Fin 128 → Fin 128 → EReal} (q : Fin 128)
    (ha : a = a') (hd : d = d') (hWl : Wl = Wl') (hb : b = b') (hs : s = s') (hWr : Wr = Wr') :
    Cert.Sage.hid a d Wl b s Wr q = Cert.Sage.hid a' d' Wl' b' s' Wr' q := by
  subst ha hd hWl hb hs hWr; rfl

/-- Element `(p, q)` of the body's result at point `t` is element `(1000 t + p, q)` of the closed form. -/
private theorem point_row (c : Dev nD) (t : Fin cfg0.N) (p : Fin 1000) (q : Fin 128) (r : Fin 100000)
    (hr : r.val = 1000 * t.val + p.val) :
    k0_pay1 (F := Ideal) (iblk0 V c 1 t) (iblk0 V c 0 t) (iblk0 V c 3 t) (iblk0 V c 4 t) (iblk0 V c 2 t) (iblk0 V c 5 t) (ix2 p q)
      = rows V c (ix2 r q) := by
  refine (Cert.KernelIdeal.Layer1.block_row _ _ _ _ _ _ p q).trans ?_
  exact hid_congr q (funext fun k => sum_block V c t p k r hr) (count_block V c t p 0 r hr)
    (funext fun k => funext fun j => wl_block V c t k j) (funext fun j => bias_block V c t 0 j)
    (funext fun k => self_block V c t p k r hr) (funext fun k => funext fun j => wr_block V c t k j)

/-- WHAT POINT `t` WRITES BACK is block `t` of the closed form. -/
private theorem flushed_block (c : Dev nD) (t : Fin cfg0.N) :
    (dat0 (F := Ideal) V c).flushed 6 t = ((cfg0.win 6).blk t).view.read (Elt Ideal) (rows V c) := by
  show (cfg0.win 6).cut (grid0.coords t) ((dat0 V c).after 6 t) = _
  rw [after0_6]
  unfold out0_6
  rw [View.canon_unit_zero zero_offsets]
  simp only [View.ld_unit_zero (S := S1000x1) zero_offsets, View.ld_unit_zero (S := S1000x128) zero_offsets,
    View.ld_unit_zero (S := S128x128) zero_offsets, View.ld_unit_zero (S := S1x128) zero_offsets]
  obtain ⟨-, -, -, -, -, -, -, -, -, -, -, -, e0, e1, ht⟩ := block_index t
  funext y
  show k0_pay1 (F := Ideal) (iblk0 V c 1 t) (iblk0 V c 0 t) (iblk0 V c 3 t) (iblk0 V c 4 t) (iblk0 V c 2 t) (iblk0 V c 5 t) y
    = rows V c (((cfg0.win 6).blk t).view.emb y)
  have hy0 : (y 0).val < 1000 := (y 0).isLt
  have hemb : ((cfg0.win 6).blk t).view.emb y = ix2 (⟨1000 * t.val + (y 0).val, by omega⟩ : Fin 100000) (y 1) := by
    funext a; apply Fin.ext
    match a with
    | ⟨0, _⟩ => show win0_6.index t (0 : Fin 2) * 1000 + 1 * (y 0).val = 1000 * t.val + (y 0).val; omega
    | ⟨1, _⟩ => show win0_6.index t (1 : Fin 2) * 128 + 1 * (y 1).val = (y 1).val; omega
  rw [hemb]
  exact (congrArg _ (eq_ix2 y)).trans (point_row V c t (y 0) (y 1) _ rfl)

/-! ## The blocks tile the array -/

/-- An index of the array is in point `t`'s block iff each coordinate is in the block's range on its axis. -/
private theorem mem_block (t : Fin cfg0.N) (i : S100000x128.Idx) :
    i ∈ ((cfg0.win 6).blk t).view.set ↔ ∀ a : Fin 2, win0_6.index t a * S1000x128.size a ≤ (i a).val
      ∧ (i a).val < win0_6.index t a * S1000x128.size a + S1000x128.size a := by
  show i ∈ ((View.whole main_v19).slice (win0_6.rect t)).set ↔ _
  rw [View.set_slice_whole, Rect.mem_set_unit]
  exact Iff.rfl

/-- Row `r` is in the block of point `r / 1000`: the 100 blocks of 1000 rows cover the 100000 rows. -/
private theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := point_of_block ⟨(i 0).val / 1000, by omega⟩
  have hq : t.val = (i 0).val / 1000 := ht
  obtain ⟨-, -, -, -, -, -, -, -, -, -, -, -, e0, e1, -⟩ := block_index t
  refine ⟨t, flush0_6 t, ?_⟩
  rw [mem_block]
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 128 ≤ (i 1).val ∧ (i 1).val < win0_6.index t (1 : Fin 2) * 128 + 128; omega

/-! ## The array after the run -/

theorem array (c : Dev nD) :
    (dat0 (F := Ideal) V c).arrAt 6 cfg0.N = (fun i : S100000x128.Idx =>
      Cert.Sage.hid (fun k => V c main_v18 (ix2 (i 0) k)) (V c main_v8 (ix2 (i 0) 0)) (fun k j => V c main_v9 (ix2 k j))
        (fun j => V c main_v13 (ix2 0 j)) (fun k => V c main_arg0 (ix2 (i 0) k)) (fun k j => V c main_v10 (ix2 k j)) (i 1)) :=
  (dat0 (F := Ideal) V c).arrAt_eq_of_cover 6 (rows V c) (fun t _ => flushed_block V c t) covered

end Cert.KernelIdeal.Region0

end
-- ==== Proof.Layer2Block.lean ====
/-
  The second layer's body on one block of 1000 nodes, read at a row `p` and a class lane `q`: the log-softmax,
  over the 64 classes, of the affine row of the block's row `p`.
-/
import proofs.«421539_j88493506166796_4_alg».proof.Proof.Gen.KernelIdeal.Skeleton
import proofs.«421539_j88493506166796_4_alg».proof.Proof.SageRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer2

open Cert.KernelIdeal Cert.KernelIdeal.Gen Idealize.ShloMosaic Idealize.ShloMosaic.TcCoe Idealize.ShloMosaic.ValueIdx Idealize.SL.Sem

/-! ## Constants -/

/-- The pattern of `1.0` denotes the extended real one. -/
private theorem ofBits_one_f32 : Ideal.ofBits .f32 0x3F800000#32 = 1 :=
  IdealRules.sign_bit.ideal_onePat .f32

/-- The pattern of `-∞` denotes the bottom element. -/
private theorem ofBits_neg_inf_f32 : Ideal.ofBits .f32 0xFF800000#32 = ⊥ := by
  simp [Ideal.ofBits, Ideal.ieee]

/-! ## Column layouts -/

section Column
variable {α : Type}

/-- An `[a, 1]` column broadcast to `[a, b]` reads, at `(p, c)`, the column's row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the `[a, 1]` column reads, at `(i, u)`, the vector at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Column

/-! ## The transcendental operations at an index -/

/-- The exponential of a vector at an index. -/
private theorem exp_apply {s : Shape} {φ : FTy} (v : FVec Ideal s φ) (i : s.Idx) : exp v i = Ideal.exp (v i) := rfl
/-- The logarithm of a vector at an index. -/
private theorem log_apply {s : Shape} {φ : FTy} (v : FVec Ideal s φ) (i : s.Idx) : log v i = Ideal.log (v i) := rfl

/-! ## A product of a `[1000, 128]` block with a `[128, 64]` matrix, at an index -/

/- The two operand indices of the product, axis by axis: the left one is (row of the output, inner coordinate), the
   right one (inner coordinate, column of the output). -/
private theorem lhs_ax0 (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
private theorem lhs_ax1 (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q
private theorem rhs_ax0 (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q
private theorem rhs_ax1 (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- The product into the zero splat, at row `p` and column `j`: the sum over the 128 inner coordinates. -/
private theorem matmul_zero_apply (lhs : FVec Ideal S1000x128 .f32) (rhs : FVec Ideal S128x64 .f32) (p : Fin 1000) (j : Fin 64) :
    matmul dot_S1000x128_S128x64_S1000x64_1_0_0_1_n_n none lhs rhs (constant S1000x64 .f32 0x00000000#32) (ix2 p j)
      = ∑ k : Fin 128, lhs (ix2 p k) * rhs (ix2 k j) := by
  simp only [matmul]
  rw [Ideal.matmul_constant_zero_apply, ← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 p j) ((contrEquiv1 dot_S1000x128_S128x64_S1000x64_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S1000x128_S128x64_S1000x64_1_0_0_1_n_n.rhsIdx (ix2 p j) ((contrEquiv1 dot_S1000x128_S128x64_S1000x64_1_0_0_1_n_n 128 rfl rfl).symm k) = ix2 k j := funext fun a => Fin.ext (by
    match a with
    | ⟨0, _⟩ => exact (rhs_ax0 _ _).trans hk
    | ⟨1, _⟩ => exact rhs_ax1 _ _)
  rw [el, er]

/-! ## A reduction along the class axis, at a row -/

/-- The source index over row `p` with class coordinate `k` is `(p, k)`. -/
private theorem lift_row (h : S1000x64.Reduces [1] S1000) (p : Fin 1000) (k : Fin 64) :
    h.lift (ix1 p) k = ix2 p k := by
  funext c
  refine Fin.ext ?_
  match c with
  | ⟨0, _⟩ => rfl
  | ⟨1, _⟩ => rfl

/-- The maximum along the class axis, at row `p`: the fold of `max` from `⊥` over the row. -/
private theorem rowMax_apply (z : FVec Ideal S1000x64 .f32) (p : Fin 1000) :
    multiReduction (F := Ideal) .maximumf [1] S1000 z 0xFF800000#32 reduces_S1000x64_S1000 (.inl rfl) rfl (ix1 p)
      = Cert.Sage.rowMax (fun k : Fin 64 => z (ix2 p k)) := by
  refine (Ideal.multiReduction_maximumf_single z _ _ _ _ _).trans ?_
  show (Finset.univ : Finset (Fin 64)).fold max (Ideal.ofBits .f32 0xFF800000#32) (z ∘ reduces_S1000x64_S1000.lift (ix1 p)) = _
  rw [ofBits_neg_inf_f32]
  unfold Cert.Sage.rowMax
  congr 1
  funext k
  exact congrArg z (lift_row _ p k)

/-- The sum along the class axis, at row `p`. -/
private theorem rowSum_apply (e : FVec Ideal S1000x64 .f32) (p : Fin 1000) :
    multiReduction (F := Ideal) .add [1] S1000 e 0x00000000#32 reduces_S1000x64_S1000 (.inl rfl) rfl (ix1 p)
      = ∑ k : Fin 64, e (ix2 p k) := by
  refine (Ideal.multiReduction_add_single e _ _ _ _ _).trans ?_
  show ∑ k : Fin 64, e (reduces_S1000x64_S1000.lift (ix1 p) k) = _
  exact Finset.sum_congr rfl fun k _ => congrArg e (lift_row _ p k)

/-! ## The three stretches of the payload -/

/-- The row maxima of a block, as a column, spread back over the block. -/
private def spreadMax (z : FVec Ideal S1000x64 .f32) : FVec Ideal S1000x64 .f32 :=
  broadcastTo S1000x64 (shapeCast S1000x1 (multiReduction (F := Ideal) .maximumf [1] S1000 z 0xFF800000#32 reduces_S1000x64_S1000 (.inl rfl) rfl) shapeCasts_S1000_S1000x1) broadcasts_S1000x1_S1000x64

private theorem spreadMax_apply (z : FVec Ideal S1000x64 .f32) (p : Fin 1000) (j : Fin 64) :
    spreadMax z (ix2 p j) = Cert.Sage.rowMax (fun k : Fin 64 => z (ix2 p k)) := by
  unfold spreadMax
  rw [broadcastTo_a1_ab_apply, shapeCast_a_a1_apply, rowMax_apply]

/-- The logarithms of a block's row sums, as a column, spread back over the block. -/
private def spreadLogSum (e : FVec Ideal S1000x64 .f32) : FVec Ideal S1000x64 .f32 :=
  broadcastTo S1000x64 (log (shapeCast S1000x1 (multiReduction (F := Ideal) .add [1] S1000 e 0x00000000#32 reduces_S1000x64_S1000 (.inl rfl) rfl) shapeCasts_S1000_S1000x1)) broadcasts_S1000x1_S1000x64

private theorem spreadLogSum_apply (e : FVec Ideal S1000x64 .f32) (p : Fin 1000) (j : Fin 64) :
    spreadLogSum e (ix2 p j) = Ideal.log (∑ k : Fin 64, e (ix2 p k)) := by
  unfold spreadLogSum
  rw [broadcastTo_a1_ab_apply, log_apply, shapeCast_a_a1_apply, rowSum_apply]

/-- The affine rows of the block: the mean of the summed neighbour features times the first matrix, plus the bias row,
    plus the block's own rows times the second matrix. -/
private def affine (v0 : Vec Ideal S1000x1 .f32) (v4 : Vec Ideal S1000x128 .f32) (v8 : Vec Ideal S128x64 .f32)
    (v11 : Vec Ideal S1x64 .f32) (v15 : Vec Ideal S1000x128 .f32) (v17 : Vec Ideal S128x64 .f32) : FVec Ideal S1000x64 .f32 :=
  addf
    (addf
      (matmul dot_S1000x128_S128x64_S1000x64_1_0_0_1_n_n none
        (divf (shapeCast S1000x128 v4 shapeCasts_S1000x128_S1000x128 : FVec Ideal S1000x128 .f32)
          (broadcastTo S1000x128
            (maximumf (shapeCast S1000x1 v0 shapeCasts_S1000x1_S1000x1 : FVec Ideal S1000x1 .f32)
              (broadcast S1000x1 (Scalar.ofBits .f32 0x3F800000#32)))
            broadcasts_S1000x1_S1000x128))
        (shapeCast S128x64 v8 shapeCasts_S128x64_S128x64 : FVec Ideal S128x64 .f32) (constant S1000x64 .f32 0x00000000#32))
      (broadcastTo S1000x64 (shapeCast S1x64 v11 shapeCasts_S1x64_S1x64 : FVec Ideal S1x64 .f32) broadcasts_S1x64_S1000x64))
    (matmul dot_S1000x128_S128x64_S1000x64_1_0_0_1_n_n none
      (shapeCast S1000x128 v15 shapeCasts_S1000x128_S1000x128 : FVec Ideal S1000x128 .f32)
      (shapeCast S128x64 v17 shapeCasts_S128x64_S128x64 : FVec Ideal S128x64 .f32) (constant S1000x64 .f32 0x00000000#32))

private theorem affine_apply (v0 : Vec Ideal S1000x1 .f32) (v4 : Vec Ideal S1000x128 .f32) (v8 : Vec Ideal S128x64 .f32)
    (v11 : Vec Ideal S1x64 .f32) (v15 : Vec Ideal S1000x128 .f32) (v17 : Vec Ideal S128x64 .f32) (p : Fin 1000) (j : Fin 64) :
    affine v0 v4 v8 v11 v15 v17 (ix2 p j)
      = Cert.Sage.lin (fun k => v4 (ix2 p k)) (v0 (ix2 p 0)) (fun k j => v8 (ix2 k j))
          (fun j => v11 (ix2 0 j)) (fun k => v15 (ix2 p k)) (fun k j => v17 (ix2 k j)) j := by
  unfold affine Cert.Sage.lin Cert.Sage.meanAt
  rw [addf_apply, addf_apply, matmul_zero_apply, matmul_zero_apply, broadcastTo_1b_ab_apply]
  simp only [shapeCast_self, divf_apply, broadcastTo_a1_ab_apply, maximumf_apply, broadcast_apply]
  rw [Ideal.ofBits_def, ofBits_one_f32]

set_option maxRecDepth 65536 in
/-- The payload is the log-softmax stretch over the affine rows. -/
private theorem k1_pay1_eq (v0 : Vec Ideal S1000x1 .f32) (v4 : Vec Ideal S1000x128 .f32) (v8 : Vec Ideal S128x64 .f32)
    (v11 : Vec Ideal S1x64 .f32) (v15 : Vec Ideal S1000x128 .f32) (v17 : Vec Ideal S128x64 .f32) :
    k1_pay1 (F := Ideal) v0 v4 v8 v11 v15 v17
      = subf (subf (affine v0 v4 v8 v11 v15 v17) (spreadMax (affine v0 v4 v8 v11 v15 v17)))
          (spreadLogSum (exp (subf (affine v0 v4 v8 v11 v15 v17) (spreadMax (affine v0 v4 v8 v11 v15 v17))))) := rfl

theorem block_row (v0 : Vec Ideal S1000x1 .f32) (v4 : Vec Ideal S1000x128 .f32) (v8 : Vec Ideal S128x64 .f32)
    (v11 : Vec Ideal S1x64 .f32) (v15 : Vec Ideal S1000x128 .f32) (v17 : Vec Ideal S128x64 .f32)
    (p : Fin 1000) (q : Fin 64) :
    k1_pay1 (F := Ideal) v0 v4 v8 v11 v15 v17 (ix2 p q)
      = Cert.Sage.logSm (Cert.Sage.lin (fun k => v4 (ix2 p k)) (v0 (ix2 p 0)) (fun k j => v8 (ix2 k j))
          (fun j => v11 (ix2 0 j)) (fun k => v15 (ix2 p k)) (fun k j => v17 (ix2 k j))) q := by
  rw [k1_pay1_eq, subf_apply, subf_apply, spreadLogSum_apply, spreadMax_apply]
  simp only [exp_apply, subf_apply, spreadMax_apply, affine_apply]
  rfl

end Cert.KernelIdeal.Layer2

end
-- ==== Proof.Region1Array.lean ====
/-
  What the second pallas_call leaves in its output array, whatever the buffers hold when it is entered (`V`):
  row `r` is the log-softmax of the second layer's affine row of row `r` of the entry arrays; the same tiling
  of the 100000 rows by 100 blocks of 1000.
-/
import proofs.«421539_j88493506166796_4_alg».proof.Proof.Gen.KernelIdeal.Frame
import proofs.«421539_j88493506166796_4_alg».proof.Proof.Layer2Block
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region1

open Cert.KernelIdeal Cert.KernelIdeal.Gen Idealize.ShloMosaic Idealize.ShloMosaic.TcCoe Idealize.ShloMosaic.ValueIdx Idealize.SL.Sem Idealize.ShloMosaic.Pipeline

variable (V : (c : Dev nD) → (b : Ref sig .tc) → Buf (Elt Ideal) ((c : Thread nD τ).loc b))

/-- The zero offset of an access to a whole staging buffer, as the constant function. -/
private theorem zero_off : (![0, 0] : Fin 2 → Nat) = fun _ => 0 := funext fun a => by fin_cases a <;> rfl

/-- One element of what the body leaves in the output block, from the six input blocks: element `(p, q)` is the log-softmax
    of the affine row of row `p` of the three row blocks, with the two weights and the bias whole. -/
private theorem out_row (x0 : Vec Ideal S1000x128 .f32) (x1 : Vec Ideal S1000x1 .f32) (x2 : Vec Ideal S1000x128 .f32)
    (x3 : Vec Ideal S128x64 .f32) (x4 : Vec Ideal S1x64 .f32) (x5 : Vec Ideal S128x64 .f32) (p : Fin 1000) (q : Fin 64) :
    out1_6 (F := Ideal) x0 x1 x2 x3 x4 x5 (ix2 p q)
      = Cert.Sage.logSm (Cert.Sage.lin (fun k => x0 (ix2 p k)) (x1 (ix2 p 0)) (fun k j => x3 (ix2 k j)) (fun j => x4 (ix2 0 j))
          (fun k => x2 (ix2 p k)) (fun k j => x5 (ix2 k j))) q := by
  unfold out1_6
  rw [View.canon_unit_zero zero_off]
  simp only [View.ld_unit_zero (S := S1000x1) zero_off, View.ld_unit_zero (S := S1000x128) zero_off,
    View.ld_unit_zero (S := S128x64) zero_off, View.ld_unit_zero (S := S1x64) zero_off]
  exact Cert.KernelIdeal.Layer2.block_row x1 x0 x3 x4 x2 x5 p q

/-- The index maps, decided over the 100 points: the three row windows and the output window sit at block row `t`,
    column block 0; the two weights and the bias sit at block (0, 0) at every point. -/
private theorem block_index : ∀ t : Fin cfg1.N, win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Window 0's block at point `t`: its row `p` is row `1000·t + p` of the first feature array. -/
private theorem rows0_at (c : Dev nD) (t : Fin cfg1.N) (p : Fin 1000) (k : Fin 128) (r : Fin 100000) (hr : r.val = t.val * 1000 + p.val) :
    iblk1 (F := Ideal) V c 0 t (ix2 p k) = V c main_v23 (ix2 r k) := by
  obtain ⟨-, -, e0, e1, -⟩ := block_index t
  show V c main_v23 (((cfg1.win 0).blk t).view.emb (ix2 p k)) = V c main_v23 (ix2 r k)
  congr 1
  funext a; apply Fin.ext
  match a with
  | ⟨0, _⟩ => show win1_0.index t (0 : Fin 2) * 1000 + 1 * p.val = r.val; omega
  | ⟨1, _⟩ => show win1_0.index t (1 : Fin 2) * 128 + 1 * k.val = k.val; omega

/-- Window 1's block at point `t`: its row `p` is row `1000·t + p` of the count column. -/
private theorem rows1_at (c : Dev nD) (t : Fin cfg1.N) (p : Fin 1000) (k : Fin 1) (r : Fin 100000) (hr : r.val = t.val * 1000 + p.val) :
    iblk1 (F := Ideal) V c 1 t (ix2 p k) = V c main_v8 (ix2 r k) := by
  obtain ⟨-, -, -, -, e0, e1, -⟩ := block_index t
  show V c main_v8 (((cfg1.win 1).blk t).view.emb (ix2 p k)) = V c main_v8 (ix2 r k)
  congr 1
  funext a; apply Fin.ext
  match a with
  | ⟨0, _⟩ => show win1_1.index t (0 : Fin 2) * 1000 + 1 * p.val = r.val; omega
  | ⟨1, _⟩ => show win1_1.index t (1 : Fin 2) * 1 + 1 * k.val = k.val; omega

/-- Window 2's block at point `t`: its row `p` is row `1000·t + p` of the second feature array. -/
private theorem rows2_at (c : Dev nD) (t : Fin cfg1.N) (p : Fin 1000) (k : Fin 128) (r : Fin 100000) (hr : r.val = t.val * 1000 + p.val) :
    iblk1 (F := Ideal) V c 2 t (ix2 p k) = V c main_v19 (ix2 r k) := by
  obtain ⟨-, -, -, -, -, -, e0, e1, -⟩ := block_index t
  show V c main_v19 (((cfg1.win 2).blk t).view.emb (ix2 p k)) = V c main_v19 (ix2 r k)
  congr 1
  funext a; apply Fin.ext
  match a with
  | ⟨0, _⟩ => show win1_2.index t (0 : Fin 2) * 1000 + 1 * p.val = r.val; omega
  | ⟨1, _⟩ => show win1_2.index t (1 : Fin 2) * 128 + 1 * k.val = k.val; omega

/-- Window 3's block at every point is the whole first weight. -/
private theorem whole3_at (c : Dev nD) (t : Fin cfg1.N) (k : Fin 128) (j : Fin 64) :
    iblk1 (F := Ideal) V c 3 t (ix2 k j) = V c main_v11 (ix2 k j) := by
  obtain ⟨-, -, -, -, -, -, -, -, e0, e1, -⟩ := block_index t
  show V c main_v11 (((cfg1.win 3).blk t).view.emb (ix2 k j)) = V c main_v11 (ix2 k j)
  congr 1
  funext a; apply Fin.ext
  match a with
  | ⟨0, _⟩ => show win1_3.index t (0 : Fin 2) * 128 + 1 * k.val = k.val; omega
  | ⟨1, _⟩ => show win1_3.index t (1 : Fin 2) * 64 + 1 * j.val = j.val; omega

/-- Window 4's block at every point is the whole bias row. -/
private theorem whole4_at (c : Dev nD) (t : Fin cfg1.N) (k : Fin 1) (j : Fin 64) :
    iblk1 (F := Ideal) V c 4 t (ix2 k j) = V c main_v14 (ix2 k j) := by
  obtain ⟨-, -, -, -, -, -, -, -, -, -, e0, e1, -⟩ := block_index t
  show V c main_v14 (((cfg1.win 4).blk t).view.emb (ix2 k j)) = V c main_v14 (ix2 k j)
  congr 1
  funext a; apply Fin.ext
  match a with
  | ⟨0, _⟩ => show win1_4.index t (0 : Fin 2) * 1 + 1 * k.val = k.val; omega
  | ⟨1, _⟩ => show win1_4.index t (1 : Fin 2) * 64 + 1 * j.val = j.val; omega

/-- Window 5's block at every point is the whole second weight. -/
private theorem whole5_at (c : Dev nD) (t : Fin cfg1.N) (k : Fin 128) (j : Fin 64) :
    iblk1 (F := Ideal) V c 5 t (ix2 k j) = V c main_v12 (ix2 k j) := by
  obtain ⟨-, -, -, -, -, -, -, -, -, -, -, -, e0, e1⟩ := block_index t
  show V c main_v12 (((cfg1.win 5).blk t).view.emb (ix2 k j)) = V c main_v12 (ix2 k j)
  congr 1
  funext a; apply Fin.ext
  match a with
  | ⟨0, _⟩ => show win1_5.index t (0 : Fin 2) * 128 + 1 * k.val = k.val; omega
  | ⟨1, _⟩ => show win1_5.index t (1 : Fin 2) * 64 + 1 * j.val = j.val; omega

/-- Element `(p, q)` of the output window's block at point `t` is element `(1000·t + p, q)` of the array. -/
private theorem out_at (t : Fin cfg1.N) (p : Fin 1000) (q : Fin 64) (r : Fin 100000) (hr : r.val = t.val * 1000 + p.val) :
    ((cfg1.win 6).blk t).view.emb (ix2 p q) = (ix2 r q : S100000x64.Idx) := by
  obtain ⟨e0, e1, -⟩ := block_index t
  funext a; apply Fin.ext
  match a with
  | ⟨0, _⟩ => show win1_6.index t (0 : Fin 2) * 1000 + 1 * p.val = r.val; omega
  | ⟨1, _⟩ => show win1_6.index t (1 : Fin 2) * 64 + 1 * q.val = q.val; omega

/-- WHAT POINT `t` WRITES BACK is block `t` of the row-by-row function of the entry arrays. -/
private theorem flushed_rows (c : Dev nD) (t : Fin cfg1.N) :
    (dat1 (F := Ideal) V c).flushed 6 t = ((cfg1.win 6).blk t).view.read (Elt Ideal) (fun i : S100000x64.Idx =>
      Cert.Sage.logSm (Cert.Sage.lin (fun k => V c main_v23 (ix2 (i 0) k)) (V c main_v8 (ix2 (i 0) 0)) (fun k j => V c main_v11 (ix2 k j))
        (fun j => V c main_v14 (ix2 0 j)) (fun k => V c main_v19 (ix2 (i 0) k)) (fun k j => V c main_v12 (ix2 k j))) (i 1)) := by
  show (cfg1.win 6).cut (grid1.coords t) ((dat1 V c).after 6 t) = _
  rw [after1_6]
  funext j
  obtain ⟨p, q, rfl⟩ : ∃ (p : Fin 1000) (q : Fin 64), j = ix2 p q := ⟨j 0, j 1, eq_ix2 j⟩
  have ht : t.val < 100 := t.isLt
  have hp : p.val < 1000 := p.isLt
  obtain ⟨r, hr⟩ : ∃ r : Fin 100000, r.val = t.val * 1000 + p.val := ⟨⟨t.val * 1000 + p.val, by omega⟩, rfl⟩
  show out1_6 (iblk1 V c 0 t) (iblk1 V c 1 t) (iblk1 V c 2 t) (iblk1 V c 3 t) (iblk1 V c 4 t) (iblk1 V c 5 t) (ix2 p q)
    = (fun i : S100000x64.Idx =>
      Cert.Sage.logSm (Cert.Sage.lin (fun k => V c main_v23 (ix2 (i 0) k)) (V c main_v8 (ix2 (i 0) 0)) (fun k j => V c main_v11 (ix2 k j))
        (fun j => V c main_v14 (ix2 0 j)) (fun k => V c main_v19 (ix2 (i 0) k)) (fun k j => V c main_v12 (ix2 k j))) (i 1))
      (((cfg1.win 6).blk t).view.emb (ix2 p q))
  rw [out_at t p q r hr, out_row]
  simp only [rows0_at V c t p _ r hr, rows1_at V c t p _ r hr, rows2_at V c t p _ r hr, whole3_at V c t, whole4_at V c t, whole5_at V c t]

/-- A row-column pair of the array is in point `t`'s block iff each coordinate is in the block's range on its axis. -/
private theorem mem_block (t : Fin cfg1.N) (i : S100000x64.Idx) :
    i ∈ ((cfg1.win 6).blk t).view.set ↔ ∀ a : Fin 2, win1_6.index t a * S1000x64.size a ≤ (i a).val ∧ (i a).val < win1_6.index t a * S1000x64.size a + S1000x64.size a := by
  show i ∈ ((View.whole main_v24).slice (win1_6.rect t)).set ↔ _
  rw [View.set_slice_whole, Rect.mem_set_unit]
  exact Iff.rfl

/-- EVERY ELEMENT IS COVERED: row `r` lies in the block of point `r / 1000`. -/
private theorem covered (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : (i 0).val / 1000 < cfg1.N := by show (i 0).val / 1000 < 100; omega
  obtain ⟨t, ht⟩ : ∃ t : Fin cfg1.N, t.val = (i 0).val / 1000 := ⟨⟨(i 0).val / 1000, hN⟩, rfl⟩
  refine ⟨t, flush1_6 t, ?_⟩
  obtain ⟨e0, e1, -⟩ := block_index t
  rw [mem_block]
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 64 ≤ (i 1).val ∧ (i 1).val < win1_6.index t (1 : Fin 2) * 64 + 64; omega

theorem array (c : Dev nD) :
    (dat1 (F := Ideal) V c).arrAt 6 cfg1.N = (fun i : S100000x64.Idx =>
      Cert.Sage.logSm (Cert.Sage.lin (fun k => V c main_v23 (ix2 (i 0) k)) (V c main_v8 (ix2 (i 0) 0)) (fun k j => V c main_v11 (ix2 k j))
        (fun j => V c main_v14 (ix2 0 j)) (fun k => V c main_v19 (ix2 (i 0) k)) (fun k j => V c main_v12 (ix2 k j))) (i 1)) := by
  exact (dat1 (F := Ideal) V c).arrAt_eq_of_cover 6 _ (fun t _ => flushed_rows V c t) covered

end Cert.KernelIdeal.Region1

end
-- ==== Proof.RefRows.lean ====
/-
  The reference read one node row at a time.

  Row `r` of the hidden layer is the positive part of the affine row built from row `r` of the summed messages
  (the reference's own scatter of its own gather, left as it stands), node `r`'s neighbour count, row `r` of the
  node table, and the two first-layer weights read transposed (`W j k` as input `k`, output `j`). Row `r` of the
  result is the log-softmax over the 64 classes of the second layer's affine row, built the same way from the
  hidden layer. The extra `max` with `−∞` in the reference's log-softmax is the identity.
-/
import proofs.«421539_j88493506166796_4_alg».proof.Proof.RefRead
import proofs.«421539_j88493506166796_4_alg».proof.Proof.SageRow
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Rows

open Cert.ReferenceIdeal Cert.ReferenceIdeal.Gen Cert.ReferenceIdeal.ReadP Idealize.ShloMosaic Idealize.ShloMosaic.TcCoe Idealize.ShloMosaic.ValueIdx Idealize.SL.Sem

/-! The two float literals other than zero: `1.0` and `−∞`. -/

private theorem one_f32 : Ideal.ofBits .f32 0x3F800000#32 = 1 := by
  have h : ((8388608 : ℝ) : EReal) * (((2 : ℝ) ^ 23)⁻¹ : ℝ) = 1 := by
    rw [← EReal.coe_mul]; norm_num
  simpa [Ideal.ofBits, Ideal.ieee] using h

private theorem ninf_f32 : Ideal.ofBits .f32 0xFF800000#32 = ⊥ := by
  simp [Ideal.ofBits, Ideal.ieee]

/-! Index equations of the first layer. -/
private theorem e_lidx24 (r : Fin 100000) (q k : Fin 128) : lidx_main_v24 (ix2 r q) k = ix2 r k :=
  funext fun a => Fin.ext (by match a with | ⟨0, _⟩ => rfl | ⟨1, _⟩ => rfl)
private theorem e_ridx24 (r : Fin 100000) (q k : Fin 128) : ridx_main_v24 (ix2 r q) k = ix2 k q :=
  funext fun a => Fin.ext (by match a with | ⟨0, _⟩ => rfl | ⟨1, _⟩ => rfl)
private theorem e_idx23 (k q : Fin 128) : idx_main_v23 (ix2 k q) = ix2 q k :=
  funext fun a => Fin.ext (by match a with | ⟨0, _⟩ => rfl | ⟨1, _⟩ => rfl)
private theorem e_idx21 (r : Fin 100000) (k : Fin 128) : idx_main_v20 (idx_main_v21 (ix2 r k)) = ix1 r :=
  funext fun a => Fin.ext (by match a with | ⟨0, _⟩ => rfl)
private theorem e_idx26 (r : Fin 100000) (q : Fin 128) : idx_main_v25 (idx_main_v26 (ix2 r q)) = ix1 q :=
  funext fun a => Fin.ext (by match a with | ⟨0, _⟩ => rfl)
private theorem e_lidx29 (r : Fin 100000) (q k : Fin 128) : lidx_main_v29 (ix2 r q) k = ix2 r k :=
  funext fun a => Fin.ext (by match a with | ⟨0, _⟩ => rfl | ⟨1, _⟩ => rfl)
private theorem e_ridx29 (r : Fin 100000) (q k : Fin 128) : ridx_main_v29 (ix2 r q) k = ix2 k q :=
  funext fun a => Fin.ext (by match a with | ⟨0, _⟩ => rfl | ⟨1, _⟩ => rfl)
private theorem e_idx28 (k q : Fin 128) : idx_main_v28 (ix2 k q) = ix2 q k :=
  funext fun a => Fin.ext (by match a with | ⟨0, _⟩ => rfl | ⟨1, _⟩ => rfl)

/-! The first layer's operands read at one index. -/
private theorem v22_at (x0 : (⟨S100000x128, .f32⟩ : BufTy).Contents (Elt Ideal)) (x1 : (⟨S2x1600000, .i32⟩ : BufTy).Contents (Elt Ideal))
    (r : Fin 100000) (k : Fin 128) :
    val_main_v22 (F := Ideal) x0 x1 (ix2 r k)
      = Ideal.div (val_main_v13 (F := Ideal) x0 x1 (ix2 r k)) (max (val_main_v17 (F := Ideal) x1 (ix1 r)) 1) := by
  rw [val_main_v22_apply, val_main_v21_apply, val_main_v20_apply, val_main_v19_apply, val_main_v18_apply,
    val_main_cst_3_apply, e_idx21, Ideal.hostDivf_def, Ideal.maximumf_def, Ideal.ofBits_def, one_f32]
private theorem v23_at (x2 : (⟨S128x128, .f32⟩ : BufTy).Contents (Elt Ideal)) (k q : Fin 128) :
    val_main_v23 (F := Ideal) x2 (ix2 k q) = x2 (ix2 q k) := by
  rw [val_main_v23_apply, e_idx23]
private theorem v28_at (x4 : (⟨S128x128, .f32⟩ : BufTy).Contents (Elt Ideal)) (k q : Fin 128) :
    val_main_v28 (F := Ideal) x4 (ix2 k q) = x4 (ix2 q k) := by
  rw [val_main_v28_apply, e_idx28]

theorem hidden_row (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))
    (r : Fin 100000) (q : Fin 128) :
    val_main_v31 (F := Ideal) x0 x1 x2 x3 x4 (ix2 r q)
      = Cert.Sage.hid (fun k => val_main_v13 (F := Ideal) x0 x1 (ix2 r k)) (val_main_v17 (F := Ideal) x1 (ix1 r))
          (fun k j => x2 (ix2 j k)) (fun j => x3 (ix1 j)) (fun k => x0 (ix2 r k)) (fun k j => x4 (ix2 j k)) q := by
  rw [val_main_v31_apply, val_main_v30_apply, val_main_v27_apply, val_main_v24_apply, val_main_v29_apply,
    val_main_v26_apply, val_main_v25_apply, val_main_call0_v0_apply, val_main_call0_cst_apply]
  simp only [e_lidx24, e_ridx24, e_idx26, e_lidx29, e_ridx29, v22_at, v23_at, v28_at,
    Ideal.ofBits_def, Ideal.maximumf_def, Ideal.addf_def, Ideal.ofBits_zero_f32, Cert.Sage.hid, Cert.Sage.lin,
    Cert.Sage.meanAt]

/-! Index equations of the second layer. -/
private theorem e_lidx52 (r : Fin 100000) (j : Fin 64) (k : Fin 128) : lidx_main_v52 (ix2 r j) k = ix2 r k :=
  funext fun a => Fin.ext (by match a with | ⟨0, _⟩ => rfl | ⟨1, _⟩ => rfl)
private theorem e_ridx52 (r : Fin 100000) (j : Fin 64) (k : Fin 128) : ridx_main_v52 (ix2 r j) k = ix2 k j :=
  funext fun a => Fin.ext (by match a with | ⟨0, _⟩ => rfl | ⟨1, _⟩ => rfl)
private theorem e_idx51 (k : Fin 128) (j : Fin 64) : idx_main_v51 (ix2 k j) = ix2 j k :=
  funext fun a => Fin.ext (by match a with | ⟨0, _⟩ => rfl | ⟨1, _⟩ => rfl)
private theorem e_idx49 (r : Fin 100000) (k : Fin 128) : idx_main_v48 (idx_main_v49 (ix2 r k)) = ix1 r :=
  funext fun a => Fin.ext (by match a with | ⟨0, _⟩ => rfl)
private theorem e_idx54 (r : Fin 100000) (j : Fin 64) : idx_main_v53 (idx_main_v54 (ix2 r j)) = ix1 j :=
  funext fun a => Fin.ext (by match a with | ⟨0, _⟩ => rfl)
private theorem e_lidx57 (r : Fin 100000) (j : Fin 64) (k : Fin 128) : lidx_main_v57 (ix2 r j) k = ix2 r k :=
  funext fun a => Fin.ext (by match a with | ⟨0, _⟩ => rfl | ⟨1, _⟩ => rfl)
private theorem e_ridx57 (r : Fin 100000) (j : Fin 64) (k : Fin 128) : ridx_main_v57 (ix2 r j) k = ix2 k j :=
  funext fun a => Fin.ext (by match a with | ⟨0, _⟩ => rfl | ⟨1, _⟩ => rfl)
private theorem e_idx56 (k : Fin 128) (j : Fin 64) : idx_main_v56 (ix2 k j) = ix2 j k :=
  funext fun a => Fin.ext (by match a with | ⟨0, _⟩ => rfl | ⟨1, _⟩ => rfl)
private theorem e_idxc4 (r : Fin 100000) (j : Fin 64) : idx_main_call1_v3 (idx_main_call1_v4 (ix2 r j)) = ix1 r :=
  funext fun a => Fin.ext (by match a with | ⟨0, _⟩ => rfl)
private theorem e_idxc10 (r : Fin 100000) (j : Fin 64) : idx_main_call1_v8 (idx_main_call1_v10 (ix2 r j)) = ix1 r :=
  funext fun a => Fin.ext (by match a with | ⟨0, _⟩ => rfl)
private theorem e_idxc7 (r : Fin 100000) (k : Fin 64) : idx_main_call1_v7 (ix1 r) k = ix2 r k :=
  funext fun a => Fin.ext (by match a with | ⟨0, _⟩ => rfl | ⟨1, _⟩ => rfl)

/-! The second layer's operands read at one index. -/
private theorem v50_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))
    (r : Fin 100000) (k : Fin 128) :
    val_main_v50 (F := Ideal) x0 x1 x2 x3 x4 (ix2 r k)
      = Ideal.div (val_main_v41 (F := Ideal) x0 x1 x2 x3 x4 (ix2 r k)) (max (val_main_v45 (F := Ideal) x1 (ix1 r)) 1) := by
  rw [val_main_v50_apply, val_main_v49_apply, val_main_v48_apply, val_main_v47_apply, val_main_v46_apply,
    val_main_cst_9_apply, e_idx49, Ideal.hostDivf_def, Ideal.maximumf_def, Ideal.ofBits_def, one_f32]
private theorem v51_at (x5 : (⟨S64x128, .f32⟩ : BufTy).Contents (Elt Ideal)) (k : Fin 128) (j : Fin 64) :
    val_main_v51 (F := Ideal) x5 (ix2 k j) = x5 (ix2 j k) := by
  rw [val_main_v51_apply, e_idx51]
private theorem v56_at (x7 : (⟨S64x128, .f32⟩ : BufTy).Contents (Elt Ideal)) (k : Fin 128) (j : Fin 64) :
    val_main_v56 (F := Ideal) x7 (ix2 k j) = x7 (ix2 j k) := by
  rw [val_main_v56_apply, e_idx56]

/-- The second layer's affine row. -/
private theorem v58_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal))
    (r : Fin 100000) (j : Fin 64) :
    val_main_v58 (F := Ideal) x0 x1 x2 x3 x4 x5 x6 x7 (ix2 r j)
      = Cert.Sage.lin (fun k => val_main_v41 (F := Ideal) x0 x1 x2 x3 x4 (ix2 r k)) (val_main_v45 (F := Ideal) x1 (ix1 r))
          (fun k j => x5 (ix2 j k)) (fun j => x6 (ix1 j)) (fun k => val_main_v31 (F := Ideal) x0 x1 x2 x3 x4 (ix2 r k))
          (fun k j => x7 (ix2 j k)) j := by
  rw [val_main_v58_apply, val_main_v55_apply, val_main_v52_apply, val_main_v57_apply, val_main_v54_apply,
    val_main_v53_apply]
  simp only [e_lidx52, e_ridx52, e_idx54, e_lidx57, e_ridx57, v50_at, v51_at, v56_at,
    Ideal.addf_def, Cert.Sage.lin, Cert.Sage.meanAt]

/-! The log-softmax on top of the affine row. -/

/-- The row maximum the reference folds along axis 1 of the second layer's affine array, from `−∞`. -/
private theorem c1v0_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal))
    (r : Fin 100000) :
    val_main_call1_v0 (F := Ideal) x0 x1 x2 x3 x4 x5 x6 x7 (ix1 r)
      = Cert.Sage.rowMax (fun k : Fin 64 => val_main_v58 (F := Ideal) x0 x1 x2 x3 x4 x5 x6 x7 (ix2 r k)) := by
  unfold val_main_call1_v0
  generalize val_main_v58 (F := Ideal) x0 x1 x2 x3 x4 x5 x6 x7 = y
  have h : S100000x64.Reduces [1] S100000 := by decide
  refine (Host.reduce_eq_fold_single (FloatOps.maximumf (F := Ideal) (φ := .f32)) y (val_main_call1_cst (F := Ideal))
    reducesTo_S100000x64_S100000_d1 h h_S_ (ix1 r)).trans ?_
  have hf : ∀ k : Fin 64, h.lift (ix1 r) k = ix2 r k := fun k =>
    funext fun a => Fin.ext (by match a with | ⟨0, _⟩ => rfl | ⟨1, _⟩ => rfl)
  rw [val_main_call1_cst_apply, Ideal.ofBits_def, ninf_f32]
  show Finset.fold max ⊥ (fun k : Fin 64 => y (h.lift (ix1 r) k)) Finset.univ = _
  simp only [hf, Cert.Sage.rowMax]

private theorem c1v2_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal))
    (r : Fin 100000) :
    val_main_call1_v2 (F := Ideal) x0 x1 x2 x3 x4 x5 x6 x7 (ix1 r)
      = Cert.Sage.rowMax (fun k : Fin 64 => val_main_v58 (F := Ideal) x0 x1 x2 x3 x4 x5 x6 x7 (ix2 r k)) := by
  rw [val_main_call1_v2_apply, val_main_call1_v1_apply, val_main_call1_cst_0_apply, c1v0_at, Ideal.maximumf_def,
    Ideal.ofBits_def, ninf_f32, Cert.Sage.max_bot_left]

private theorem c1v5_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal))
    (r : Fin 100000) (j : Fin 64) :
    val_main_call1_v5 (F := Ideal) x0 x1 x2 x3 x4 x5 x6 x7 (ix2 r j)
      = val_main_v58 (F := Ideal) x0 x1 x2 x3 x4 x5 x6 x7 (ix2 r j)
          - Cert.Sage.rowMax (fun k : Fin 64 => val_main_v58 (F := Ideal) x0 x1 x2 x3 x4 x5 x6 x7 (ix2 r k)) := by
  rw [val_main_call1_v5_apply, val_main_call1_v4_apply, val_main_call1_v3_apply, e_idxc4, c1v2_at, Ideal.subf_def]

private theorem c1v6_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal))
    (r : Fin 100000) (j : Fin 64) :
    val_main_call1_v6 (F := Ideal) x0 x1 x2 x3 x4 x5 x6 x7 (ix2 r j)
      = Ideal.exp (val_main_v58 (F := Ideal) x0 x1 x2 x3 x4 x5 x6 x7 (ix2 r j)
          - Cert.Sage.rowMax (fun k : Fin 64 => val_main_v58 (F := Ideal) x0 x1 x2 x3 x4 x5 x6 x7 (ix2 r k))) := by
  rw [val_main_call1_v6_apply, c1v5_at, Ideal.hostUnary_exp_def]

private theorem c1v7_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal))
    (r : Fin 100000) :
    val_main_call1_v7 (F := Ideal) x0 x1 x2 x3 x4 x5 x6 x7 (ix1 r)
      = ∑ k : Fin 64, Ideal.exp (val_main_v58 (F := Ideal) x0 x1 x2 x3 x4 x5 x6 x7 (ix2 r k)
          - Cert.Sage.rowMax (fun k : Fin 64 => val_main_v58 (F := Ideal) x0 x1 x2 x3 x4 x5 x6 x7 (ix2 r k))) := by
  rw [val_main_call1_v7_apply, val_main_call1_cst_1_apply, Ideal.ofBits_def, Ideal.ofBits_zero_f32, zero_add]
  simp only [e_idxc7, c1v6_at]

theorem result_row (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal))
    (r : Fin 100000) (q : Fin 64) :
    val_main_v59 (F := Ideal) x0 x1 x2 x3 x4 x5 x6 x7 (ix2 r q)
      = Cert.Sage.logSm (Cert.Sage.lin (fun k => val_main_v41 (F := Ideal) x0 x1 x2 x3 x4 (ix2 r k)) (val_main_v45 (F := Ideal) x1 (ix1 r))
          (fun k j => x5 (ix2 j k)) (fun j => x6 (ix1 j)) (fun k => val_main_v31 (F := Ideal) x0 x1 x2 x3 x4 (ix2 r k))
          (fun k j => x7 (ix2 j k))) q := by
  rw [val_main_v59_apply, val_main_call1_v10_apply, val_main_call1_v9_apply, val_main_call1_v8_apply, e_idxc10,
    c1v7_at, c1v5_at, Ideal.subf_def, Ideal.hostUnary_log_def]
  simp only [v58_at, Cert.Sage.logSm]

end Cert.ReferenceIdeal.Rows

end
-- ==== Proof.SameTerms.lean ====
/-
  The two programs apply the same host operations.

  The kernel's per-destination sum of the bare gather is the reference's summed messages as a function of the node
  table and the edge list; the kernel's count is the reference's; and the reference's second-layer sum and count are
  its first-layer ones with the hidden layer in the node table's place. Each holds by unfolding the names: the
  operations, their dimension records and their constants are the same on both sides, and nothing is evaluated.
-/
import proofs.«421539_j88493506166796_4_alg».proof.Proof.HostTerms
import proofs.«421539_j88493506166796_4_alg».proof.Proof.RefRead

noncomputable section

namespace Cert.Proof.SameTerms

open Idealize.ShloMosaic Idealize.ShloMosaic.TcCoe
open Cert.KernelIdeal.HostTerms

variable {F : FTy → Type} [FloatOps F]

theorem sum_eq (feat : (⟨Cert.KernelIdeal.S100000x128, .f32⟩ : BufTy).Contents (Elt F)) (ei : (⟨Cert.KernelIdeal.S2x1600000, .i32⟩ : BufTy).Contents (Elt F)) :
    sumInto (F := F) (dstOf ei) (gatherRows feat (srcOf ei)) = Cert.ReferenceIdeal.ReadP.val_main_v13 (F := F) feat ei := rfl

theorem count_eq (ei : (⟨Cert.KernelIdeal.S2x1600000, .i32⟩ : BufTy).Contents (Elt F)) :
    countInto (F := F) (dstOf ei) = Cert.ReferenceIdeal.ReadP.val_main_v17 (F := F) ei := rfl

theorem sum2_eq (x0 : (⟨Cert.KernelIdeal.S100000x128, .f32⟩ : BufTy).Contents (Elt F)) (x1 : (⟨Cert.KernelIdeal.S2x1600000, .i32⟩ : BufTy).Contents (Elt F)) (x2 : (⟨Cert.KernelIdeal.S128x128, .f32⟩ : BufTy).Contents (Elt F)) (x3 : (⟨Cert.KernelIdeal.S128, .f32⟩ : BufTy).Contents (Elt F)) (x4 : (⟨Cert.KernelIdeal.S128x128, .f32⟩ : BufTy).Contents (Elt F)) :
    Cert.ReferenceIdeal.ReadP.val_main_v41 (F := F) x0 x1 x2 x3 x4
      = Cert.ReferenceIdeal.ReadP.val_main_v13 (F := F) (Cert.ReferenceIdeal.ReadP.val_main_v31 (F := F) x0 x1 x2 x3 x4) x1 := rfl

theorem count2_eq (x1 : (⟨Cert.KernelIdeal.S2x1600000, .i32⟩ : BufTy).Contents (Elt F)) :
    Cert.ReferenceIdeal.ReadP.val_main_v45 (F := F) x1 = Cert.ReferenceIdeal.ReadP.val_main_v17 (F := F) x1 := rfl

end Cert.Proof.SameTerms

end
-- ==== Proof.Bridge.lean ====
/-
  The kernel's result array is the reference's last stage of the same argument arrays.

  With every source id a valid row index, the guarded row read is the bare gather, so the sums the two pallas_calls
  read are the reference's own summed messages; the count column read at `(r, 0)` is the reference's count at `r`;
  a transposed weight read at `(k, j)` is the weight at `(j, k)`; a bias row read at `(0, j)` is the bias at `j`.
  Row by row the first call's output is then the reference's hidden layer, as whole arrays; the second call reads
  that array both directly and through the same sum, and row by row its output is the reference's result.
-/
import proofs.«421539_j88493506166796_4_alg».proof.Proof.KernelRun
import proofs.«421539_j88493506166796_4_alg».proof.Proof.KernelHost
import proofs.«421539_j88493506166796_4_alg».proof.Proof.Region0Array
import proofs.«421539_j88493506166796_4_alg».proof.Proof.Region1Array
import proofs.«421539_j88493506166796_4_alg».proof.Proof.TakeInRange
import proofs.«421539_j88493506166796_4_alg».proof.Proof.RefRows
import proofs.«421539_j88493506166796_4_alg».proof.Proof.SameTerms
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Proof.Bridge

open Cert.KernelIdeal Cert.KernelIdeal.Gen Idealize.ShloMosaic Idealize.ShloMosaic.TcCoe Idealize.ShloMosaic.ValueIdx Idealize.SL.Sem Idealize.ShloMosaic.Pipeline Cert.KernelIdeal.HostTerms Cert.KernelIdeal.HostReads Cert.Proof

/-- A vector cast to a column reads, at `(i, u)`, the vector at `i`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

variable (m : (ℓ : Loc nD τ sig) → Buf (Elt Ideal) ℓ) (ρ : Dev nD → PrngReg)

/-- The first call's output array is the reference's hidden layer of the arguments. -/
theorem hidden_eq (c : Dev nD) (hv : ValidIds (srcOf (m ((c : Thread nD τ).loc main_arg1)))) :
    (dat0 (F := Ideal) (V3 m ρ) c).arrAt 6 cfg0.N
      = Cert.ReferenceIdeal.ReadP.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Region0.array (V3 m ρ) c]
  funext i
  obtain ⟨r, q, rfl⟩ : ∃ (r : Fin 100000) (q : Fin 128), i = ix2 r q := ⟨i 0, i 1, eq_ix2 i⟩
  rw [Cert.ReferenceIdeal.Rows.hidden_row]
  show Cert.Sage.hid (fun k => V3 m ρ c main_v18 (ix2 r k)) (V3 m ρ c main_v8 (ix2 r 0)) (fun k j => V3 m ρ c main_v9 (ix2 k j))
      (fun j => V3 m ρ c main_v13 (ix2 0 j)) (fun k => V3 m ρ c main_arg0 (ix2 r k)) (fun k j => V3 m ρ c main_v10 (ix2 k j)) q = _
  rw [entry0_sum, entry0_count, entry0_wl, entry0_bias, entry0_x, entry0_wr, takeRows_eq_gatherRows _ _ hv, SameTerms.sum_eq]
  simp only [countCol, column_apply, shapeCast_a_1a_apply, SameTerms.count_eq]
  have hl : ∀ (k j : Fin 128), transpose S128x128 [1, 0] (m ((c : Thread nD τ).loc main_arg2)) transposes_S128x128_S128x128_1_0 (ix2 k j)
      = (m ((c : Thread nD τ).loc main_arg2)) (ix2 j k) := fun k j => transpose_ix2_apply (a := 128) (b := 128) _ _ k j
  have hr : ∀ (k j : Fin 128), transpose S128x128 [1, 0] (m ((c : Thread nD τ).loc main_arg4)) transposes_S128x128_S128x128_1_0 (ix2 k j)
      = (m ((c : Thread nD τ).loc main_arg4)) (ix2 j k) := fun k j => transpose_ix2_apply (a := 128) (b := 128) _ _ k j
  simp only [hl, hr]

/-- The second call's output array, the program's result, is the reference's result of the arguments. -/
theorem result_eq (c : Dev nD) (hv : ValidIds (srcOf (m ((c : Thread nD τ).loc main_arg1)))) :
    W7 (F := Ideal) m ρ c (Proc.devRef .tc main_v24)
      = Cert.ReferenceIdeal.ReadP.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W7 (F := Ideal) m ρ c (Proc.devRef .tc main_v24) = (dat1 (V6 m ρ) c).arrAt 6 cfg1.N from W7_arr m ρ c 6]
  rw [Region1.array (V6 m ρ) c]
  funext i
  obtain ⟨r, q, rfl⟩ : ∃ (r : Fin 100000) (q : Fin 64), i = ix2 r q := ⟨i 0, i 1, eq_ix2 i⟩
  rw [Cert.ReferenceIdeal.Rows.result_row]
  show Cert.Sage.logSm (Cert.Sage.lin (fun k => V6 m ρ c main_v23 (ix2 r k)) (V6 m ρ c main_v8 (ix2 r 0)) (fun k j => V6 m ρ c main_v11 (ix2 k j))
      (fun j => V6 m ρ c main_v14 (ix2 0 j)) (fun k => V6 m ρ c main_v19 (ix2 r k)) (fun k j => V6 m ρ c main_v12 (ix2 k j))) q = _
  rw [entry1_sum, entry1_count, entry1_wl, entry1_bias, entry1_hidden, entry1_wr, hidden_eq m ρ c hv,
    takeRows_eq_gatherRows _ _ hv, SameTerms.sum_eq, SameTerms.sum2_eq, SameTerms.count2_eq]
  simp only [countCol, column_apply, shapeCast_a_1a_apply, SameTerms.count_eq]
  have hl : ∀ (k : Fin 128) (j : Fin 64), transpose S128x64 [1, 0] (m ((c : Thread nD τ).loc main_arg5)) transposes_S64x128_S128x64_1_0 (ix2 k j)
      = (m ((c : Thread nD τ).loc main_arg5)) (ix2 j k) := fun k j => transpose_ix2_apply (a := 64) (b := 128) _ _ k j
  have hr : ∀ (k : Fin 128) (j : Fin 64), transpose S128x64 [1, 0] (m ((c : Thread nD τ).loc main_arg7)) transposes_S64x128_S128x64_1_0 (ix2 k j)
      = (m ((c : Thread nD τ).loc main_arg7)) (ix2 j k) := fun k j => transpose_ix2_apply (a := 64) (b := 128) _ _ k j
  simp only [hl, hr]

end Cert.Proof.Bridge

end
-- ==== Proof.lean ====
/-
  A two-layer mean-aggregating graph convolution (relu after the first layer, log-softmax after the second), computed
  by a program whose per-node work runs in two pallas_calls over blocks of 1000 nodes and whose gather and
  per-destination sums stay on the host, against the same network written in plain array operations.

  The precondition: every float input finite (never used: no step needs it) and every source node id of the edge
  list a valid row index of the 100000-row node table, negative ids counted from the end. The second conjunct is
  what the equivalence rests on: the program reads a neighbour's row through a guard that fills an out-of-table read
  with a fixed pattern, where the reference's indexing clamps; inside the table the two reads are the same gather.

  The three frames: the two kernel programs by their generated frame certificates, the reference by its run with the
  result dropped. The idealization rewrote nothing, so `preserves` is trivial. The value claim: the program's run
  ends with the result buffer at the second call's output array, which row by row is the reference's last stage of
  the same arguments (the bridge); the reference's run ends with its result at that same stage.
-/
import proofs.«421539_j88493506166796_4_alg».proof.Defs
import proofs.«421539_j88493506166796_4_alg».proof.Proof.Gen.Kernel
import proofs.«421539_j88493506166796_4_alg».proof.Proof.Gen.Kernel.Skeleton
import proofs.«421539_j88493506166796_4_alg».proof.Proof.Gen.Kernel.Launch
import proofs.«421539_j88493506166796_4_alg».proof.Proof.Gen.Kernel.Points
import proofs.«421539_j88493506166796_4_alg».proof.Proof.Gen.Kernel.Frame
import proofs.«421539_j88493506166796_4_alg».proof.Proof.Gen.KernelIdeal
import proofs.«421539_j88493506166796_4_alg».proof.Proof.Gen.KernelIdeal.Skeleton
import proofs.«421539_j88493506166796_4_alg».proof.Proof.Gen.KernelIdeal.Launch
import proofs.«421539_j88493506166796_4_alg».proof.Proof.Gen.KernelIdeal.Points
import proofs.«421539_j88493506166796_4_alg».proof.Proof.Gen.KernelIdeal.Frame
import proofs.«421539_j88493506166796_4_alg».proof.Proof.Gen.ReferenceIdeal
import proofs.«421539_j88493506166796_4_alg».proof.Proof.Gen.Pre_finite_inputs
import proofs.«421539_j88493506166796_4_alg».proof.Proof.RefRun
import proofs.«421539_j88493506166796_4_alg».proof.Proof.RefRead
import proofs.«421539_j88493506166796_4_alg».proof.Proof.RefFold
import proofs.«421539_j88493506166796_4_alg».proof.Proof.KernelRun
import proofs.«421539_j88493506166796_4_alg».proof.Proof.PreSrc
import proofs.«421539_j88493506166796_4_alg».proof.Proof.Bridge
import Idealize.ShloMosaic.Adequacy
import Idealize.ShloMosaic.Init

noncomputable section

namespace Cert.Proof

open Idealize.ShloMosaic Idealize.SL.Sem

/-- The word-level program runs, nothing faulting, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Fold.run (F := Ideal) m ρ)

/-- Both idealized programs end with the reference's last stage of the (agreeing) arguments in their result buffers. -/
theorem algebraic : Cert.algebraic_KernelIdeal_ReferenceIdeal := by
  intro m ρ m' ρ' hpre hagree
  refine ⟨fun c => Cert.ReferenceIdeal.ReadP.val_main_v59 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun _ h c => ⟨(h c).1.trans ?_, (h c).2⟩)
      (Cert.KernelIdeal.GenP.run_result (F := Ideal) m ρ)
    exact Cert.Proof.Bridge.result_eq m ρ c (Cert.KernelIdeal.HostTerms.validIds_of_pre m hpre c)
  · refine (θ_run Cert.ReferenceIdeal.defs _ _).mono (fun _ h c => ⟨(h c).1.trans ?_, (h c).2⟩)
      (Cert.ReferenceIdeal.Fold.run (F := Ideal) m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
